-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x1024 : Shape := ⟨3, ![1, 4096, 1024]⟩
abbrev S2x4096x1024 : Shape := ⟨3, ![2, 4096, 1024]⟩
abbrev S1024x1024 : Shape := ⟨2, ![1024, 1024]⟩
abbrev S1024 : Shape := ⟨1, ![1024]⟩
abbrev S4096x2048 : Shape := ⟨2, ![4096, 2048]⟩
abbrev S4096 : Shape := ⟨1, ![4096]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S2x4096x1024 : S_.BroadcastsInDim S2x4096x1024 (![] : Fin 0 → Fin S2x4096x1024.rank)
  reducesTo_S2x4096x1024_S_d0_1_2 : S2x4096x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_arg11 : FVec F S4096 .f32) (main_v48 : IVec S_ 1) (main_v49 : FVec F S4096x2048 .f32) (main_v50 : FVec F S4096x2048 .f32) : IVec S_ 1 :=
  let main_v51 : IVec S4096x2048 1 := cmpf .olt main_v49 main_v50
  let main_c_19 : IVec S_ 1 := constantI S_ 1 1#1
  let main_v52 : IVec S_ 1 := (fun x v => Host.reduce IntOp.andi x v reducesTo_S4096x2048_S_d0_1 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  main_v58

def fn_part2 {F : FTy → Type} [FloatOps F] (main_arg7 : FVec F S1024x1024 .f32) (main_arg8 : FVec F S1024 .f32) (main_arg9 : FVec F S1024 .f32) (main_arg10 : FVec F S4096x2048 .f32) (main_arg11 : FVec F S4096 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S4096x2048 .f32 := Host.absf main_arg10
  let main_cst_18 : FVec F S_ .f32 := constant S_ .f32 0x7F800000#32
  let main_v50 : FVec F S4096x2048 .f32 := broadcastInDim S4096x2048 ![] bcast_S_S4096x2048 main_cst_18
  fn_part3 (F := F) main_arg11 main_v48 main_v49 main_v50

def fn_part1 {F : FTy → Type} [FloatOps F] (main_arg4 : FVec F S1024 .f32) (main_arg5 : FVec F S1024 .f32) (main_arg6 : FVec F S1024x1024 .f32) (main_arg7 : FVec F S1024x1024 .f32) (main_arg8 : FVec F S1024 .f32) (main_arg9 : FVec F S1024 .f32) (main_arg10 : FVec F S4096x2048 .f32) (main_arg11 : FVec F S4096 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1x4096x1024 .f32) (main_arg1 : FVec F S2x4096x1024 .f32) (main_arg2 : FVec F S1024x1024 .f32) (main_arg3 : FVec F S1024x1024 .f32) (main_arg4 : FVec F S1024 .f32) (main_arg5 : FVec F S1024 .f32) (main_arg6 : FVec F S1024x1024 .f32) (main_arg7 : FVec F S1024x1024 .f32) (main_arg8 : FVec F S1024 .f32) (main_arg9 : FVec F S1024 .f32) (main_arg10 : FVec F S4096x2048 .f32) (main_arg11 : FVec F S4096 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S2x4096x1024 .f32 := Host.absf main_arg1
  let main_cst_0 : FVec F S_ .f32 := constant S_ .f32 0x7F800000#32
  let main_v5 : FVec F S2x4096x1024 .f32 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_v13 main_v16
-- ==== Kernel.lean ====
abbrev S1x4096x1024 : Shape := ⟨3, ![1, 4096, 1024]⟩
abbrev S2x4096x1024 : Shape := ⟨3, ![2, 4096, 1024]⟩
abbrev S1024x1024 : Shape := ⟨2, ![1024, 1024]⟩
abbrev S1024 : Shape := ⟨1, ![1024]⟩
abbrev S4096x2048 : Shape := ⟨2, ![4096, 2048]⟩
abbrev S4096 : Shape := ⟨1, ![4096]⟩
abbrev S4096x1024 : Shape := ⟨2, ![4096, 1024]⟩
abbrev S1x1024 : Shape := ⟨2, ![1, 1024]⟩
abbrev S256x1024 : Shape := ⟨2, ![256, 1024]⟩
abbrev S1024x4096 : Shape := ⟨2, ![1024, 4096]⟩
abbrev S1x4096 : Shape := ⟨2, ![1, 4096]⟩
abbrev S4096x4096 : Shape := ⟨2, ![4096, 4096]⟩
abbrev S128x1024 : Shape := ⟨2, ![128, 1024]⟩
abbrev S128x4096 : Shape := ⟨2, ![128, 4096]⟩
abbrev S128 : Shape := ⟨1, ![128]⟩
abbrev S128x1 : Shape := ⟨2, ![128, 1]⟩

abbrev nBuf : Space → Nat
  | .hbm => 46
  | .vmem => 27
  | .smem => 0
  | _ => 0

abbrev bufTy : (tb : Table) → Fin (tcTables nBuf tb) → BufTy
  | .hbm, ⟨0, _⟩ => ⟨S1x4096x1024, .f32⟩
  | .hbm, ⟨1, _⟩ => ⟨S2x4096x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S4096x2048, .f32⟩
  | .hbm, ⟨11, _⟩ => ⟨S4096, .f32⟩
  | .hbm, ⟨12, _⟩ => ⟨S4096x1024, .f32⟩
  | .hbm, ⟨13, _⟩ => ⟨S1x4096x1024, .f32⟩
  | .hbm, ⟨14, _⟩ => ⟨S4096x1024, .f32⟩
  | .hbm, ⟨15, _⟩ => ⟨S1x4096x1024, .f32⟩
  | .hbm, ⟨16, _⟩ => ⟨S4096x1024, .f32⟩
  | .hbm, ⟨17, _⟩ => ⟨S4096x1024, .bf16⟩
  | .hbm, ⟨18, _⟩ => ⟨S4096x1024, .bf16⟩
  | .hbm, ⟨19, _⟩ => ⟨S4096x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .bf16⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x4096x1024, .f32⟩
  | .hbm, ⟨35, _⟩ => ⟨S1x4096x1024, .f32⟩
  | .hbm, ⟨36, _⟩ => ⟨S2x4096x1024, .f32⟩
  | .hbm, ⟨37, _⟩ => ⟨S4096x1024, .bf16⟩
  | .hbm, ⟨38, _⟩ => ⟨S4096x1024, .f32⟩
  | .hbm, ⟨39, _⟩ => ⟨S1024x4096, .f32⟩
  | .hbm, ⟨40, _⟩ => ⟨S1024x4096, .bf16⟩
  | .hbm, ⟨41, _⟩ => ⟨S4096x1024, .f32⟩
  | .hbm, ⟨42, _⟩ => ⟨S1024x4096, .f32⟩
  | .hbm, ⟨43, _⟩ => ⟨S1024x4096, .bf16⟩
  | .hbm, ⟨44, _⟩ => ⟨S1x4096, .f32⟩
  | .hbm, ⟨45, _⟩ => ⟨S4096x4096, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S1024x4096, .bf16⟩
  | .local _ .vmem, ⟨23, _⟩ => ⟨S1024x4096, .bf16⟩
  | .local _ .vmem, ⟨24, _⟩ => ⟨S1x4096, .f32⟩
  | .local _ .vmem, ⟨25, _⟩ => ⟨S128x4096, .f32⟩
  | .local _ .vmem, ⟨26, _⟩ => ⟨S128x4096, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem5_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S1x4096x1024_S4096x1024 : S1x4096x1024.ShapeCasts S4096x1024
  slices_S2x4096x1024_S1x4096x1024_0_0_0 : S2x4096x1024.Slices ![0, 0, 0] S1x4096x1024
  slices_S2x4096x1024_S1x4096x1024_1_0_0 : S2x4096x1024.Slices ![1, 0, 0] S1x4096x1024
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  bcast_S4096x1024_S1x4096x1024_1_2 : S4096x1024.BroadcastsInDim S1x4096x1024 (![1, 2] : Fin 2 → Fin S1x4096x1024.rank)
  concatenates_S1x4096x1024_S1x4096x1024_S2x4096x1024_d0 : Shape.Concatenates [S1x4096x1024, S1x4096x1024] S2x4096x1024 0
  slices_S4096x2048_S4096x1024_0_0 : S4096x2048.Slices ![0, 0] S4096x1024
  transposes_S4096x1024_S1024x4096_1_0 : S4096x1024.Transposes [1, 0] S1024x4096
  slices_S4096x2048_S4096x1024_0_1024 : S4096x2048.Slices ![0, 1024] S4096x1024
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  reduces_S128x4096_S128 : S128x4096.Reduces [1] S128
  shapeCasts_S128_S128x1 : S128.ShapeCasts S128x1
  broadcasts_S128x1_S128x4096 : S128x1.Broadcasts S128x4096
  inb_S128x4096_S128x4096_0_0 : ∀ a, (![0, 0] : Fin 2 → Nat) a + S128x4096.size a ≤ S128x4096.size a
  h_S128x4096 : 0 < S128x4096.numel
  dot_S256x1024_S1024x1024_S256x1024_1_0_0_1_n_n_wf : DotDims.WF S256x1024 S1024x1024 S256x1024 [1] [0] [0] [1] [] []
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .bf16 = 32 ∨ (Rect.block (s := S4096x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .bf16 = 32 ∨ (Rect.block (s := S4096x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S4096x1024.size a
  hwx0_11 : ∀ i : grid0.Coords, EltTy.bits .f32 = 32 ∨ (Rect.block (s := S4096x1024) S256x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S4096x1024.size a
  hwx0_12 : ∀ i : grid0.Coords, EltTy.bits .f32 = 32 ∨ (Rect.block (s := S4096x1024) S256x1024.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S4096x1024.size a
  hwx1_0 : ∀ i : grid1.Coords, EltTy.bits .bf16 = 32 ∨ (Rect.block (s := S4096x1024) S128x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S4096x1024.size a
  hwx1_1 : ∀ i : grid1.Coords, EltTy.bits .bf16 = 32 ∨ (Rect.block (s := S4096x1024) S128x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x4096.size a ≤ S1024x4096.size a
  hwx1_2 : ∀ i : grid1.Coords, EltTy.bits .bf16 = 32 ∨ (Rect.block (s := S1024x4096) S1024x4096.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x4096.size a ≤ S1024x4096.size a
  hwx1_3 : ∀ i : grid1.Coords, EltTy.bits .bf16 = 32 ∨ (Rect.block (s := S1024x4096) S1024x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x4096.size a ≤ S4096x4096.size a
  hwx1_5 : ∀ i : grid1.Coords, EltTy.bits .f32 = 32 ∨ (Rect.block (s := S4096x4096) S128x4096.size (cc1_transform_5 i) (hinb1_5 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_v5) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20_0) S256x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v20_1) S256x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v5) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1024x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1024x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S128x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1x4096x1024 : Shape := ⟨3, ![1, 4096, 1024]⟩
abbrev S2x4096x1024 : Shape := ⟨3, ![2, 4096, 1024]⟩
abbrev S1024x1024 : Shape := ⟨2, ![1024, 1024]⟩
abbrev S1024 : Shape := ⟨1, ![1024]⟩
abbrev S4096x2048 : Shape := ⟨2, ![4096, 2048]⟩
abbrev S4096 : Shape := ⟨1, ![4096]⟩
abbrev S4096x1024 : Shape := ⟨2, ![4096, 1024]⟩
abbrev S1x1024 : Shape := ⟨2, ![1, 1024]⟩
abbrev S2048x4096 : Shape := ⟨2, ![2048, 4096]⟩
abbrev S4096x4096 : Shape := ⟨2, ![4096, 4096]⟩
abbrev S1x4096 : Shape := ⟨2, ![1, 4096]⟩
abbrev S_ : Shape := ⟨0, ![]⟩
abbrev S4096x1 : Shape := ⟨2, ![4096, 1]⟩

abbrev nBuf : Space → Nat
  | .hbm => 65
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S2x4096x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S4096x2048, .f32⟩
  | .hbm, ⟨11, _⟩ => ⟨S4096, .f32⟩
  | .hbm, ⟨12, _⟩ => ⟨S4096x1024, .f32⟩
  | .hbm, ⟨13, _⟩ => ⟨S1024x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S1x4096x1024, .f32⟩
  | .hbm, ⟨19, _⟩ => ⟨S4096x1024, .f32⟩
  | .hbm, ⟨20, _⟩ => ⟨S1024x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x4096x1024, .f32⟩
  | .hbm, ⟨33, _⟩ => ⟨S4096x1024, .f32⟩
  | .hbm, ⟨34, _⟩ => ⟨S1024x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1x4096x1024, .f32⟩
  | .hbm, ⟨42, _⟩ => ⟨S1x4096x1024, .f32⟩
  | .hbm, ⟨43, _⟩ => ⟨S2x4096x1024, .f32⟩
  | .hbm, ⟨44, _⟩ => ⟨S4096x2048, .f32⟩
  | .hbm, ⟨45, _⟩ => ⟨S2048x4096, .f32⟩
  | .hbm, ⟨46, _⟩ => ⟨S4096x4096, .f32⟩
  | .hbm, ⟨47, _⟩ => ⟨S1x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096x1, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1, .f32⟩
  | .hbm, ⟨63, _⟩ => ⟨S4096x4096, .f32⟩
  | .hbm, ⟨64, _⟩ => ⟨S4096x4096, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call0_cst : Ref sig .tc := ⟨.hbm, 50, rfl⟩
abbrev main_call0_v0 : Ref sig .tc := ⟨.hbm, 51, rfl⟩
abbrev main_call0_cst_0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_cst_1 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_v38 : Ref sig .tc := ⟨.hbm, 64, rfl⟩

abbrev nD : Nat := 1
abbrev τ : Topo := Topo.v7x

variable {F : FTy → Type} [FloatOps F]

class Facts₀ : Prop where
  shapeCasts_S1x4096x1024_S4096x1024 : S1x4096x1024.ShapeCasts S4096x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  slices_S2x4096x1024_S1x4096x1024_0_0_0 : S2x4096x1024.Slices ![0, 0, 0] S1x4096x1024
  slices_S2x4096x1024_S1x4096x1024_1_0_0 : S2x4096x1024.Slices ![1, 0, 0] S1x4096x1024
  bcast_S4096x1024_S1x4096x1024_1_2 : S4096x1024.BroadcastsInDim S1x4096x1024 (![1, 2] : Fin 2 → Fin S1x4096x1024.rank)
  concatenates_S1x4096x1024_S1x4096x1024_S2x4096x1024_d0 : Shape.Concatenates [S1x4096x1024, S1x4096x1024] S2x4096x1024 0
  concatenates_S4096x1024_S4096x1024_S4096x2048_d1 : Shape.Concatenates [S4096x1024, S4096x1024] S4096x2048 1
  transposes_S4096x2048_S2048x4096_1_0 : S4096x2048.Transposes [1, 0] S2048x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x2048_S2048x4096_S4096x4096_1_0_0_1_n_n_wf : DotDims.WF S4096x2048 S2048x4096 S4096x4096 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.Spec.lean ====
/-
  The mathematics both programs compute, as functions of whole arrays read at an index, over the extended reals.

  A two-layer tanh recurrent cell at one time step, then a linear layer on the input joined with the new first
  hidden state, then a row-wise log-softmax:

    h0[b, j] = tanh (∑ₖ x[b, k] · A[k, j] + ∑ₖ g0[b, k] · B[k, j] + a[j] + a'[j])
    h1[b, j] = tanh (∑ₖ h0[b, k] · C[k, j] + ∑ₖ g1[b, k] · D[k, j] + c[j] + c'[j])
    z[b, o]  = ∑ₖ x[b, k] · W[o, k] + ∑ₖ h0[b, k] · W[o, 1024 + k] + w[o]
    y[b, o]  = (z[b, o] − max_o' z[b, o']) − log ∑_o' exp (z[b, o'] − max_o'' z[b, o''])

  with the recurrent weights given already transposed (A = W_ih0ᵀ and so on) and the row maximum taken from the
  reduction's own initial value. Nothing here needs the entries to be finite: the only laws used further on are
  commutativity and associativity of addition, and that a sum over 2048 terms is the sum of its two halves.
-/
import Idealize.ShloMosaic.PureOps.Ideal
import Idealize.ShloMosaic.Lib.ValueIdx
import Mathlib.Data.Finset.Fold

noncomputable section

namespace Cert.Spec

open Idealize.ShloMosaic Idealize.ShloMosaic.ValueIdx

/-- A matrix of extended reals with `r` rows and `n` columns. -/
abbrev Mat (r n : Nat) : Type := (⟨2, ![r, n]⟩ : Shape).Idx → EReal
/-- A vector of extended reals of length `n`. -/
abbrev Vect (n : Nat) : Type := (⟨1, ![n]⟩ : Shape).Idx → EReal

/-- One entry of a tanh layer: row `b` of the two inputs against column `j` of the two (transposed) weights, plus the
    two biases at `j`, under tanh. -/
def layerAt (x g : Mat 4096 1024) (A B : Mat 1024 1024) (a a' : Vect 1024) (b : Fin 4096) (j : Fin 1024) : EReal :=
  Ideal.tanh ((((∑ k : Fin 1024, x (ix2 b k) * A (ix2 k j)) + (∑ k : Fin 1024, g (ix2 b k) * B (ix2 k j))) + a (ix1 j)) + a' (ix1 j))

/-- A tanh layer as a whole array. -/
def layer (x g : Mat 4096 1024) (A B : Mat 1024 1024) (a a' : Vect 1024) : Mat 4096 1024 :=
  fun i => layerAt x g A B a a' (i 0) (i 1)

theorem layer_apply (x g : Mat 4096 1024) (A B : Mat 1024 1024) (a a' : Vect 1024) (b : Fin 4096) (j : Fin 1024) :
    layer x g A B a a' (ix2 b j) = layerAt x g A B a a' b j := rfl

/-- One logit: row `b` of the input against the first 1024 columns of row `o` of the output weight, row `b` of the
    hidden state against its last 1024 columns, plus the output bias at `o`. -/
def logitAt (x h : Mat 4096 1024) (W : Mat 4096 2048) (w : Vect 4096) (b : Fin 4096) (o : Fin 4096) : EReal :=
  ((∑ k : Fin 1024, x (ix2 b k) * W (ix2 o (Fin.castAdd 1024 k))) + (∑ k : Fin 1024, h (ix2 b k) * W (ix2 o (Fin.natAdd 1024 k)))) + w (ix1 o)

/-- The maximum of a row of 4096 entries, taken from the initial value `z₀`. -/
def rowMax (z₀ : EReal) (z : Fin 4096 → EReal) : EReal := (Finset.univ : Finset (Fin 4096)).fold max z₀ z

/-- One entry of the log-softmax of a row, the maximum taken from `z₀`. -/
def logSoftmaxAt (z₀ : EReal) (z : Fin 4096 → EReal) (o : Fin 4096) : EReal :=
  (z o - rowMax z₀ z) - Ideal.log (∑ o' : Fin 4096, Ideal.exp (z o' - rowMax z₀ z))

/-- The first result as a whole array: the row-wise log-softmax of the logits. -/
def out (z₀ : EReal) (x h : Mat 4096 1024) (W : Mat 4096 2048) (w : Vect 4096) : Mat 4096 4096 :=
  fun i => logSoftmaxAt z₀ (fun o' => logitAt x h W w (i 0) o') (i 1)

theorem out_apply (z₀ : EReal) (x h : Mat 4096 1024) (W : Mat 4096 2048) (w : Vect 4096) (b o : Fin 4096) :
    out z₀ x h W w (ix2 b o) = logSoftmaxAt z₀ (fun o' => logitAt x h W w b o') o := rfl

/-- The row maximum is at least the value it starts from, so taking the maximum with that value again changes nothing. -/
theorem max_rowMax (z₀ : EReal) (z : Fin 4096 → EReal) : max z₀ (rowMax z₀ z) = rowMax z₀ z :=
  max_eq_right ((Finset.le_fold_max z₀).mpr (Or.inl le_rfl))

/-- A sum over 2048 terms is the sum over its first 1024 plus the sum over its last 1024. -/
theorem sum_2048 (f : Fin 2048 → EReal) :
    ∑ k : Fin 2048, f k = (∑ k : Fin 1024, f (Fin.castAdd 1024 k)) + (∑ k : Fin 1024, f (Fin.natAdd 1024 k)) :=
  Fin.sum_univ_add (a := 1024) (b := 1024) f

/-- The two orders in which the programs add a layer's four terms agree. -/
theorem add4_comm (p q r s : EReal) : ((p + r) + q) + s = ((p + q) + r) + s := by
  rw [add_right_comm p r q]

/-! ## The two results as functions of the twelve argument arrays

  The input arrives as `[1, 4096, 1024]` and the two hidden states stacked as `[2, 4096, 1024]`; the recurrent weights
  arrive untransposed. The second result stacks the two new hidden states again. -/

/-- A rank-3 array of extended reals. -/
abbrev Ten3 (a b c : Nat) : Type := (⟨3, ![a, b, c]⟩ : Shape).Idx → EReal

/-- The input with its leading unit axis dropped. -/
def inputOf (a0 : Ten3 1 4096 1024) : Mat 4096 1024 := shapeCast ⟨2, ![4096, 1024]⟩ a0

/-- The first of the two stacked hidden states. -/
def hidden0Of (a1 : Ten3 2 4096 1024) : Mat 4096 1024 :=
  shapeCast ⟨2, ![4096, 1024]⟩ (extractStridedSlice ⟨3, ![1, 4096, 1024]⟩ ![0, 0, 0] a1)

/-- The second of the two stacked hidden states. -/
def hidden1Of (a1 : Ten3 2 4096 1024) : Mat 4096 1024 :=
  shapeCast ⟨2, ![4096, 1024]⟩ (extractStridedSlice ⟨3, ![1, 4096, 1024]⟩ ![1, 0, 0] a1)

/-- A square weight, transposed. -/
def transposed (a : Mat 1024 1024) : Mat 1024 1024 := transpose ⟨2, ![1024, 1024]⟩ [1, 0] a

/-- The new first hidden state. -/
def h0Of (a0 : Ten3 1 4096 1024) (a1 : Ten3 2 4096 1024) (a2 a3 : Mat 1024 1024) (a4 a5 : Vect 1024) : Mat 4096 1024 :=
  layer (inputOf a0) (hidden0Of a1) (transposed a2) (transposed a3) a4 a5

/-- The new second hidden state. -/
def h1Of (a0 : Ten3 1 4096 1024) (a1 : Ten3 2 4096 1024) (a2 a3 : Mat 1024 1024) (a4 a5 : Vect 1024)
    (a6 a7 : Mat 1024 1024) (a8 a9 : Vect 1024) : Mat 4096 1024 :=
  layer (h0Of a0 a1 a2 a3 a4 a5) (hidden1Of a1) (transposed a6) (transposed a7) a8 a9

/-- Two `[1, 4096, 1024]` arrays joined along the leading axis make a `[2, 4096, 1024]` array. -/
theorem stack_shapes :
    Shape.Concatenates [(⟨3, ![1, 4096, 1024]⟩ : Shape), ⟨3, ![1, 4096, 1024]⟩] ⟨3, ![2, 4096, 1024]⟩ 0 := by decide

/-- Two `[4096, 1024]` arrays stacked along a new leading axis. -/
def stacked (h0 h1 : Mat 4096 1024) : Ten3 2 4096 1024 :=
  concatenate ⟨3, ![2, 4096, 1024]⟩ 0
    [⟨⟨3, ![1, 4096, 1024]⟩, broadcastInDim ⟨3, ![1, 4096, 1024]⟩ ![1, 2] (by decide) h0⟩,
     ⟨⟨3, ![1, 4096, 1024]⟩, broadcastInDim ⟨3, ![1, 4096, 1024]⟩ ![1, 2] (by decide) h1⟩] stack_shapes

/-- The first result: the log-softmax of the logits of the input and the new first hidden state. -/
def result0 (z₀ : EReal) (a0 : Ten3 1 4096 1024) (a1 : Ten3 2 4096 1024) (a2 a3 : Mat 1024 1024) (a4 a5 : Vect 1024)
    (a10 : Mat 4096 2048) (a11 : Vect 4096) : Mat 4096 4096 :=
  out z₀ (inputOf a0) (h0Of a0 a1 a2 a3 a4 a5) a10 a11

/-- The second result: the two new hidden states, stacked. -/
def result1 (a0 : Ten3 1 4096 1024) (a1 : Ten3 2 4096 1024) (a2 a3 : Mat 1024 1024) (a4 a5 : Vect 1024)
    (a6 a7 : Mat 1024 1024) (a8 a9 : Vect 1024) : Ten3 2 4096 1024 :=
  stacked (h0Of a0 a1 a2 a3 a4 a5) (h1Of a0 a1 a2 a3 a4 a5 a6 a7 a8 a9)

end Cert.Spec

end
-- ==== Proof.KernelRegion0.lean ====
/-
  What the first kernel region leaves in its two output arrays, as functions of the arrays the region is entered
  with — for ANY entry contents `V`.

  The region runs over 16 grid points; point `t` reads rows `256 t … 256 t + 255` of the three row-blocked inputs
  and all of every weight and bias, and writes rows `256 t … 256 t + 255` of the two outputs. Entry `(p, q)` of what
  the body stores is the tanh layer `Spec.layerAt` of row `p` of its input blocks; so the block written back at
  `t` is block `t` of the whole-array layer, and the sixteen blocks tile the 4096 rows.
-/
import proofs.«167359_j6451040879094_1_alg».proof.Proof.Gen.KernelIdeal.Frame
import proofs.«167359_j6451040879094_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## The body's matrix product at an entry -/

theorem lhs_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A 256×1024 block times a 1024×1024 matrix, accumulated from zero, at entry `(p, q)`: the sum over `k` of the
    block's row `p` against the matrix's column `q`. -/
theorem matmul_apply (l : FVec Ideal S256x1024 .bf16) (r : FVec Ideal S1024x1024 .bf16) (p : Fin 256) (q : Fin 1024) :
    matmul dot_S256x1024_S1024x1024_S256x1024_1_0_0_1_n_n none l r (constant S256x1024 .f32 0x00000000#32) (ix2 p q)
      = ∑ k : Fin 1024, l (ix2 p k) * r (ix2 k q) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun a => Fin.ext (by
    match a with
    | ⟨0, _⟩ => exact (rhs_0 _ _).trans hk
    | ⟨1, _⟩ => exact rhs_1 _ _)
  rw [el, er]

/-! ## The body's two stored values at an entry -/

/-- One entry of a block's tanh layer: row `p` of the two input blocks against column `q` of the two weights, plus the
    two bias rows at `q`. -/
def blockLayerAt (x g : FVec Ideal S256x1024 .bf16) (A B : FVec Ideal S1024x1024 .bf16) (a a' : FVec Ideal S1x1024 .f32)
    (p : Fin 256) (q : Fin 1024) : EReal :=
  Ideal.tanh ((((∑ k : Fin 1024, x (ix2 p k) * A (ix2 k q)) + (∑ k : Fin 1024, g (ix2 p k) * B (ix2 k q))) + a (ix2 (0 : Fin 1) q)) + a' (ix2 (0 : Fin 1) q))

/-- The value stored to the first output is the first layer of the blocks. -/
theorem pay2_apply (x0 x1 : FVec Ideal S256x1024 .bf16) (w0 w1 : FVec Ideal S1024x1024 .bf16) (b0 b1 : FVec Ideal S1x1024 .f32)
    (p : Fin 256) (q : Fin 1024) :
    k0_pay2 (F := Ideal) x0 x1 w0 w1 b0 b1 (ix2 p q) = blockLayerAt x0 x1 w0 w1 b0 b1 p q := by
  unfold k0_pay2 blockLayerAt
  simp only [shapeCast_self]
  show Ideal.tanh (((matmul dot_S256x1024_S1024x1024_S256x1024_1_0_0_1_n_n none x0 w0 (constant S256x1024 .f32 0x00000000#32) (ix2 p q)
      + matmul dot_S256x1024_S1024x1024_S256x1024_1_0_0_1_n_n none x1 w1 (constant S256x1024 .f32 0x00000000#32) (ix2 p q))
      + broadcastTo S256x1024 b0 broadcasts_S1x1024_S256x1024 (ix2 p q)) + broadcastTo S256x1024 b1 broadcasts_S1x1024_S256x1024 (ix2 p q)) = _
  rw [matmul_apply, matmul_apply, broadcastTo_1b_ab_apply, broadcastTo_1b_ab_apply]

/-- The value stored to the second output is the second layer, of the first layer's block and the second hidden
    input's block. -/
theorem pay1_apply (x0 x1 x2 : FVec Ideal S256x1024 .bf16) (w0 w1 w2 w3 : FVec Ideal S1024x1024 .bf16)
    (b0 b1 b2 b3 : FVec Ideal S1x1024 .f32) (p : Fin 256) (q : Fin 1024) :
    k0_pay1 (F := Ideal) (k0_pay3 x0 x1 x2 w0 w1 b0 b1 w2 w3) b2 b3 (ix2 p q)
      = blockLayerAt (fun i => blockLayerAt x0 x1 w0 w1 b0 b1 (i 0) (i 1)) x2 w2 w3 b2 b3 p q := by
  unfold k0_pay1 k0_pay3 blockLayerAt
  simp only [shapeCast_self]
  show Ideal.tanh (((matmul dot_S256x1024_S1024x1024_S256x1024_1_0_0_1_n_n none (truncf .bf16 (k0_pay2 (F := Ideal) x0 x1 w0 w1 b0 b1) bitsLt_bf16_f32) w2 (constant S256x1024 .f32 0x00000000#32) (ix2 p q)
      + matmul dot_S256x1024_S1024x1024_S256x1024_1_0_0_1_n_n none x2 w3 (constant S256x1024 .f32 0x00000000#32) (ix2 p q))
      + broadcastTo S256x1024 b2 broadcasts_S1x1024_S256x1024 (ix2 p q)) + broadcastTo S256x1024 b3 broadcasts_S1x1024_S256x1024 (ix2 p q)) = _
  rw [matmul_apply, matmul_apply, broadcastTo_1b_ab_apply, broadcastTo_1b_ab_apply]
  congr 3
  refine congrArg (· + _) (Finset.sum_congr rfl fun k _ => ?_)
  show k0_pay2 (F := Ideal) x0 x1 w0 w1 b0 b1 (ix2 p k) * _ = _
  rw [pay2_apply]
  rfl

/-! ## The windows' blocks, read at an entry

  Over the sixteen points: the three row-blocked inputs and the two outputs take block `t` of the rows and the one
  block of the columns; every weight and bias is its one whole block. -/

variable (V : (c : Dev nD) → (b : Ref sig .tc) → Buf (Elt Ideal) ((c : Thread nD τ).loc b))

theorem hz : (![0, 0] : Fin 2 → Nat) = fun _ => 0 := funext fun a => by fin_cases a <;> rfl

theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

theorem lt16 (t : Fin cfg0.N) : t.val < 16 := lt_of_lt_of_eq t.isLt N_0

/-- Row `p` of point `t`'s block is row `256 t + p` of the array. -/
def rowOf (t : Fin cfg0.N) (p : Fin 256) : Fin 4096 := ⟨t.val * 256 + p.val, by have := lt16 t; have := p.isLt; omega⟩

/-- A bias row `[1, 1024]` as a vector. -/
def rowv (r : (⟨2, ![1, 1024]⟩ : Shape).Idx → EReal) : Spec.Vect 1024 := fun j => r (ix2 (0 : Fin 1) (j 0))

theorem iblk_0 (c : Dev nD) (t : Fin cfg0.N) (p : Fin 256) (k : Fin 1024) :
    iblk0 V c 0 t (ix2 p k) = V c main_v5 (ix2 (rowOf t p) k) := by
  show V c main_v5 (((cfg0.win 0).blk t).view.emb (ix2 p k)) = V c main_v5 (ix2 (rowOf t p) k)
  refine congrArg (V c main_v5) (funext fun a => Fin.ext ?_)
  obtain ⟨⟨e0, e1⟩, -⟩ := idx_rows t
  match a with
  | ⟨0, _⟩ => show win0_0.index t (0 : Fin 2) * 256 + 1 * p.val = t.val * 256 + p.val; omega
  | ⟨1, _⟩ => show win0_0.index t (1 : Fin 2) * 1024 + 1 * k.val = k.val; omega

theorem iblk_1 (c : Dev nD) (t : Fin cfg0.N) (p : Fin 256) (k : Fin 1024) :
    iblk0 V c 1 t (ix2 p k) = V c main_v6 (ix2 (rowOf t p) k) := by
  show V c main_v6 (((cfg0.win 1).blk t).view.emb (ix2 p k)) = V c main_v6 (ix2 (rowOf t p) k)
  refine congrArg (V c main_v6) (funext fun a => Fin.ext ?_)
  obtain ⟨-, ⟨e0, e1⟩, -⟩ := idx_rows t
  match a with
  | ⟨0, _⟩ => show win0_1.index t (0 : Fin 2) * 256 + 1 * p.val = t.val * 256 + p.val; omega
  | ⟨1, _⟩ => show win0_1.index t (1 : Fin 2) * 1024 + 1 * k.val = k.val; omega

theorem iblk_2 (c : Dev nD) (t : Fin cfg0.N) (p : Fin 256) (k : Fin 1024) :
    iblk0 V c 2 t (ix2 p k) = V c main_v7 (ix2 (rowOf t p) k) := by
  show V c main_v7 (((cfg0.win 2).blk t).view.emb (ix2 p k)) = V c main_v7 (ix2 (rowOf t p) k)
  refine congrArg (V c main_v7) (funext fun a => Fin.ext ?_)
  obtain ⟨-, -, ⟨e0, e1⟩, -⟩ := idx_rows t
  match a with
  | ⟨0, _⟩ => show win0_2.index t (0 : Fin 2) * 256 + 1 * p.val = t.val * 256 + p.val; omega
  | ⟨1, _⟩ => show win0_2.index t (1 : Fin 2) * 1024 + 1 * k.val = k.val; omega

theorem iblk_3 (c : Dev nD) (t : Fin cfg0.N) (k q : Fin 1024) : iblk0 V c 3 t (ix2 k q) = V c main_v9 (ix2 k q) := by
  show V c main_v9 (((cfg0.win 3).blk t).view.emb (ix2 k q)) = V c main_v9 (ix2 k q)
  refine congrArg (V c main_v9) (funext fun a => Fin.ext ?_)
  obtain ⟨⟨e0, e1⟩, -⟩ := idx_whole t
  match a with
  | ⟨0, _⟩ => show win0_3.index t (0 : Fin 2) * 1024 + 1 * k.val = k.val; omega
  | ⟨1, _⟩ => show win0_3.index t (1 : Fin 2) * 1024 + 1 * q.val = q.val; omega

theorem iblk_4 (c : Dev nD) (t : Fin cfg0.N) (k q : Fin 1024) : iblk0 V c 4 t (ix2 k q) = V c main_v11 (ix2 k q) := by
  show V c main_v11 (((cfg0.win 4).blk t).view.emb (ix2 k q)) = V c main_v11 (ix2 k q)
  refine congrArg (V c main_v11) (funext fun a => Fin.ext ?_)
  obtain ⟨-, ⟨e0, e1⟩, -⟩ := idx_whole t
  match a with
  | ⟨0, _⟩ => show win0_4.index t (0 : Fin 2) * 1024 + 1 * k.val = k.val; omega
  | ⟨1, _⟩ => show win0_4.index t (1 : Fin 2) * 1024 + 1 * q.val = q.val; omega

theorem iblk_5 (c : Dev nD) (t : Fin cfg0.N) (q : Fin 1024) : iblk0 V c 5 t (ix2 (0 : Fin 1) q) = V c main_v16 (ix2 (0 : Fin 1) q) := by
  show V c main_v16 (((cfg0.win 5).blk t).view.emb (ix2 (0 : Fin 1) q)) = V c main_v16 (ix2 (0 : Fin 1) q)
  refine congrArg (V c main_v16) (funext fun a => Fin.ext ?_)
  obtain ⟨-, -, ⟨e0, e1⟩, -⟩ := idx_whole t
  match a with
  | ⟨0, _⟩ => show win0_5.index t (0 : Fin 2) * 1 + 1 * 0 = 0; omega
  | ⟨1, _⟩ => show win0_5.index t (1 : Fin 2) * 1024 + 1 * q.val = q.val; omega

theorem iblk_6 (c : Dev nD) (t : Fin cfg0.N) (q : Fin 1024) : iblk0 V c 6 t (ix2 (0 : Fin 1) q) = V c main_v17 (ix2 (0 : Fin 1) q) := by
  show V c main_v17 (((cfg0.win 6).blk t).view.emb (ix2 (0 : Fin 1) q)) = V c main_v17 (ix2 (0 : Fin 1) q)
  refine congrArg (V c main_v17) (funext fun a => Fin.ext ?_)
  obtain ⟨-, -, -, ⟨e0, e1⟩, -⟩ := idx_whole t
  match a with
  | ⟨0, _⟩ => show win0_6.index t (0 : Fin 2) * 1 + 1 * 0 = 0; omega
  | ⟨1, _⟩ => show win0_6.index t (1 : Fin 2) * 1024 + 1 * q.val = q.val; omega

theorem iblk_7 (c : Dev nD) (t : Fin cfg0.N) (k q : Fin 1024) : iblk0 V c 7 t (ix2 k q) = V c main_v13 (ix2 k q) := by
  show V c main_v13 (((cfg0.win 7).blk t).view.emb (ix2 k q)) = V c main_v13 (ix2 k q)
  refine congrArg (V c main_v13) (funext fun a => Fin.ext ?_)
  obtain ⟨-, -, -, -, ⟨e0, e1⟩, -⟩ := idx_whole t
  match a with
  | ⟨0, _⟩ => show win0_7.index t (0 : Fin 2) * 1024 + 1 * k.val = k.val; omega
  | ⟨1, _⟩ => show win0_7.index t (1 : Fin 2) * 1024 + 1 * q.val = q.val; omega

theorem iblk_8 (c : Dev nD) (t : Fin cfg0.N) (k q : Fin 1024) : iblk0 V c 8 t (ix2 k q) = V c main_v15 (ix2 k q) := by
  show V c main_v15 (((cfg0.win 8).blk t).view.emb (ix2 k q)) = V c main_v15 (ix2 k q)
  refine congrArg (V c main_v15) (funext fun a => Fin.ext ?_)
  obtain ⟨-, -, -, -, -, ⟨e0, e1⟩, -⟩ := idx_whole t
  match a with
  | ⟨0, _⟩ => show win0_8.index t (0 : Fin 2) * 1024 + 1 * k.val = k.val; omega
  | ⟨1, _⟩ => show win0_8.index t (1 : Fin 2) * 1024 + 1 * q.val = q.val; omega

theorem iblk_9 (c : Dev nD) (t : Fin cfg0.N) (q : Fin 1024) : iblk0 V c 9 t (ix2 (0 : Fin 1) q) = V c main_v18 (ix2 (0 : Fin 1) q) := by
  show V c main_v18 (((cfg0.win 9).blk t).view.emb (ix2 (0 : Fin 1) q)) = V c main_v18 (ix2 (0 : Fin 1) q)
  refine congrArg (V c main_v18) (funext fun a => Fin.ext ?_)
  obtain ⟨-, -, -, -, -, -, ⟨e0, e1⟩, -⟩ := idx_whole t
  match a with
  | ⟨0, _⟩ => show win0_9.index t (0 : Fin 2) * 1 + 1 * 0 = 0; omega
  | ⟨1, _⟩ => show win0_9.index t (1 : Fin 2) * 1024 + 1 * q.val = q.val; omega

theorem iblk_10 (c : Dev nD) (t : Fin cfg0.N) (q : Fin 1024) : iblk0 V c 10 t (ix2 (0 : Fin 1) q) = V c main_v19 (ix2 (0 : Fin 1) q) := by
  show V c main_v19 (((cfg0.win 10).blk t).view.emb (ix2 (0 : Fin 1) q)) = V c main_v19 (ix2 (0 : Fin 1) q)
  refine congrArg (V c main_v19) (funext fun a => Fin.ext ?_)
  obtain ⟨-, -, -, -, -, -, -, e0, e1⟩ := idx_whole t
  match a with
  | ⟨0, _⟩ => show win0_10.index t (0 : Fin 2) * 1 + 1 * 0 = 0; omega
  | ⟨1, _⟩ => show win0_10.index t (1 : Fin 2) * 1024 + 1 * q.val = q.val; omega

/-! ## The two output arrays -/

/-- The first layer of the arrays the region is entered with. -/
def first (c : Dev nD) : Spec.Mat 4096 1024 :=
  Spec.layer (V c main_v5) (V c main_v6) (V c main_v9) (V c main_v11) (rowv (V c main_v16)) (rowv (V c main_v17))

/-- The second layer: of the first layer and the second hidden input. -/
def second (c : Dev nD) : Spec.Mat 4096 1024 :=
  Spec.layer (first V c) (V c main_v7) (V c main_v13) (V c main_v15) (rowv (V c main_v18)) (rowv (V c main_v19))

/-- A block's first layer at `(p, q)` is the arrays' first layer at `(256 t + p, q)`. -/
theorem blockLayer_first (c : Dev nD) (t : Fin cfg0.N) (p : Fin 256) (q : Fin 1024) :
    blockLayerAt (iblk0 V c 0 t) (iblk0 V c 1 t) (iblk0 V c 3 t) (iblk0 V c 4 t) (iblk0 V c 5 t) (iblk0 V c 6 t) p q
      = first V c (ix2 (rowOf t p) q) := by
  unfold blockLayerAt
  simp only [iblk_0, iblk_1, iblk_3, iblk_4, iblk_5, iblk_6]
  rfl

/-- A block's layer at `(p, q)` is the arrays' layer at `(r, q)` as soon as row `p` of each input block is row `r` of
    its array and the weights and bias rows are the arrays'. -/
theorem blockLayerAt_eq (x g : FVec Ideal S256x1024 .bf16) (A B : FVec Ideal S1024x1024 .bf16) (a a' : FVec Ideal S1x1024 .f32)
    (X G : Spec.Mat 4096 1024) (A' B' : Spec.Mat 1024 1024) (u u' : Spec.Vect 1024) (r : Fin 4096) (p : Fin 256) (q : Fin 1024)
    (hx : ∀ k : Fin 1024, x (ix2 p k) = X (ix2 r k)) (hg : ∀ k : Fin 1024, g (ix2 p k) = G (ix2 r k))
    (hA : ∀ k : Fin 1024, A (ix2 k q) = A' (ix2 k q)) (hB : ∀ k : Fin 1024, B (ix2 k q) = B' (ix2 k q))
    (ha : a (ix2 (0 : Fin 1) q) = u (ix1 q)) (ha' : a' (ix2 (0 : Fin 1) q) = u' (ix1 q)) :
    blockLayerAt x g A B a a' p q = Spec.layerAt X G A' B' u u' r q := by
  unfold blockLayerAt Spec.layerAt
  simp only [hx, hg, hA, hB, ha, ha']

/-- A block's second layer at `(p, q)` is the arrays' second layer at `(256 t + p, q)`. -/
theorem blockLayer_second (c : Dev nD) (t : Fin cfg0.N) (p : Fin 256) (q : Fin 1024) :
    blockLayerAt (fun i => blockLayerAt (iblk0 V c 0 t) (iblk0 V c 1 t) (iblk0 V c 3 t) (iblk0 V c 4 t) (iblk0 V c 5 t) (iblk0 V c 6 t) (i 0) (i 1))
        (iblk0 V c 2 t) (iblk0 V c 7 t) (iblk0 V c 8 t) (iblk0 V c 9 t) (iblk0 V c 10 t) p q
      = second V c (ix2 (rowOf t p) q) :=
  blockLayerAt_eq (fun i => blockLayerAt (iblk0 V c 0 t) (iblk0 V c 1 t) (iblk0 V c 3 t) (iblk0 V c 4 t) (iblk0 V c 5 t) (iblk0 V c 6 t) (i 0) (i 1))
    (iblk0 V c 2 t) (iblk0 V c 7 t) (iblk0 V c 8 t) (iblk0 V c 9 t) (iblk0 V c 10 t)
    (first V c) (V c main_v7) (V c main_v13) (V c main_v15) (rowv (V c main_v18)) (rowv (V c main_v19)) (rowOf t p) p q
    (fun k => blockLayer_first V c t p k) (fun k => iblk_2 V c t p k) (fun k => iblk_7 V c t k q) (fun k => iblk_8 V c t k q)
    (iblk_9 V c t q) (iblk_10 V c t q)

/-- An array index `(256 t + p, q)` is where point `t`'s output block puts its entry `(p, q)`. -/
theorem emb_11 (t : Fin cfg0.N) (p : Fin 256) (q : Fin 1024) :
    ((cfg0.win 11).blk t).view.emb (ix2 p q) = ix2 (rowOf t p) q := by
  refine funext fun a => Fin.ext ?_
  obtain ⟨-, -, -, ⟨e0, e1⟩, -⟩ := idx_rows t
  match a with
  | ⟨0, _⟩ => show win0_11.index t (0 : Fin 2) * 256 + 1 * p.val = t.val * 256 + p.val; omega
  | ⟨1, _⟩ => show win0_11.index t (1 : Fin 2) * 1024 + 1 * q.val = q.val; omega

theorem emb_12 (t : Fin cfg0.N) (p : Fin 256) (q : Fin 1024) :
    ((cfg0.win 12).blk t).view.emb (ix2 p q) = ix2 (rowOf t p) q := by
  refine funext fun a => Fin.ext ?_
  obtain ⟨-, -, -, -, e0, e1⟩ := idx_rows t
  match a with
  | ⟨0, _⟩ => show win0_12.index t (0 : Fin 2) * 256 + 1 * p.val = t.val * 256 + p.val; omega
  | ⟨1, _⟩ => show win0_12.index t (1 : Fin 2) * 1024 + 1 * q.val = q.val; omega

/-- What point `t` writes back to the first output is block `t` of the first layer. -/
theorem flushed11_eq (c : Dev nD) (t : Fin cfg0.N) :
    (dat0 V c).flushed 11 t = ((cfg0.win 11).blk t).view.read (Elt Ideal) (first V c) := by
  show (cfg0.win 11).cut (grid0.coords t) ((dat0 V c).after 11 t) = _
  rw [after0_11]
  unfold out0_11
  rw [View.canon_unit_zero hz]
  simp only [View.ld_unit_zero (S := S256x1024) hz, View.ld_unit_zero (S := S1024x1024) hz, View.ld_unit_zero (S := S1x1024) hz]
  funext j
  obtain ⟨p, q, rfl⟩ : ∃ (p : Fin 256) (q : Fin 1024), j = ix2 p q := ⟨j 0, j 1, eq_ix2 j⟩
  show k0_pay2 (F := Ideal) (iblk0 V c 0 t) (iblk0 V c 1 t) (iblk0 V c 3 t) (iblk0 V c 4 t) (iblk0 V c 5 t) (iblk0 V c 6 t) (ix2 p q)
    = first V c (((cfg0.win 11).blk t).view.emb (ix2 p q))
  rw [emb_11]
  exact (pay2_apply (iblk0 V c 0 t) (iblk0 V c 1 t) (iblk0 V c 3 t) (iblk0 V c 4 t) (iblk0 V c 5 t) (iblk0 V c 6 t) p q).trans
    (blockLayer_first V c t p q)

/-- What point `t` writes back to the second output is block `t` of the second layer. -/
theorem flushed12_eq (c : Dev nD) (t : Fin cfg0.N) :
    (dat0 V c).flushed 12 t = ((cfg0.win 12).blk t).view.read (Elt Ideal) (second V c) := by
  show (cfg0.win 12).cut (grid0.coords t) ((dat0 V c).after 12 t) = _
  rw [after0_12]
  unfold out0_12
  rw [View.canon_unit_zero hz]
  simp only [View.ld_unit_zero (S := S256x1024) hz, View.ld_unit_zero (S := S1024x1024) hz, View.ld_unit_zero (S := S1x1024) hz]
  funext j
  obtain ⟨p, q, rfl⟩ : ∃ (p : Fin 256) (q : Fin 1024), j = ix2 p q := ⟨j 0, j 1, eq_ix2 j⟩
  show k0_pay1 (F := Ideal) (k0_pay3 (iblk0 V c 0 t) (iblk0 V c 1 t) (iblk0 V c 2 t) (iblk0 V c 3 t) (iblk0 V c 4 t) (iblk0 V c 5 t) (iblk0 V c 6 t) (iblk0 V c 7 t) (iblk0 V c 8 t))
      (iblk0 V c 9 t) (iblk0 V c 10 t) (ix2 p q)
    = second V c (((cfg0.win 12).blk t).view.emb (ix2 p q))
  rw [emb_12]
  exact (pay1_apply (iblk0 V c 0 t) (iblk0 V c 1 t) (iblk0 V c 2 t) (iblk0 V c 3 t) (iblk0 V c 4 t) (iblk0 V c 7 t) (iblk0 V c 8 t)
      (iblk0 V c 5 t) (iblk0 V c 6 t) (iblk0 V c 9 t) (iblk0 V c 10 t) p q).trans (blockLayer_second V c t p q)

/-- An array index is in point `t`'s output block iff each coordinate is in the block's range on its axis. -/
theorem mem_blk11 (t : Fin cfg0.N) (i : S4096x1024.Idx) :
    i ∈ ((cfg0.win 11).blk t).view.set ↔ ∀ a : Fin 2, win0_11.index t a * S256x1024.size a ≤ (i a).val ∧ (i a).val < win0_11.index t a * S256x1024.size a + S256x1024.size a := by
  show i ∈ ((View.whole main_v20_0).slice (win0_11.rect t)).set ↔ _
  rw [View.set_slice_whole, Rect.mem_set_unit]
  exact Iff.rfl

theorem mem_blk12 (t : Fin cfg0.N) (i : S4096x1024.Idx) :
    i ∈ ((cfg0.win 12).blk t).view.set ↔ ∀ a : Fin 2, win0_12.index t a * S256x1024.size a ≤ (i a).val ∧ (i a).val < win0_12.index t a * S256x1024.size a + S256x1024.size a := by
  show i ∈ ((View.whole main_v20_1).slice (win0_12.rect t)).set ↔ _
  rw [View.set_slice_whole, Rect.mem_set_unit]
  exact Iff.rfl

/-- The point whose block holds row `r` is `r / 256`. -/
def pointOf (i : S4096x1024.Idx) : Fin cfg0.N :=
  ⟨(i 0).val / 256, by have h : (i 0).val < 4096 := (i 0).isLt; rw [show cfg0.N = 16 from N_0]; omega⟩

theorem cover11 (i : S4096x1024.Idx) : ∃ t : Fin cfg0.N, (cfg0.win 11).flush t = true ∧ i ∈ ((cfg0.win 11).blk t).view.set := by
  have hi0 : (i 0).val < 4096 := (i 0).isLt
  have hi1 : (i 1).val < 1024 := (i 1).isLt
  obtain ⟨-, -, -, ⟨e0, e1⟩, -⟩ := idx_rows (pointOf i)
  have ht : (pointOf i).val = (i 0).val / 256 := rfl
  refine ⟨pointOf i, flush0_11 _, ?_⟩
  rw [mem_blk11]
  intro a
  match a with
  | ⟨0, _⟩ => show win0_11.index (pointOf i) (0 : Fin 2) * 256 ≤ (i 0).val ∧ (i 0).val < win0_11.index (pointOf i) (0 : Fin 2) * 256 + 256; omega
  | ⟨1, _⟩ => show win0_11.index (pointOf i) (1 : Fin 2) * 1024 ≤ (i 1).val ∧ (i 1).val < win0_11.index (pointOf i) (1 : Fin 2) * 1024 + 1024; omega

theorem cover12 (i : S4096x1024.Idx) : ∃ t : Fin cfg0.N, (cfg0.win 12).flush t = true ∧ i ∈ ((cfg0.win 12).blk t).view.set := by
  have hi0 : (i 0).val < 4096 := (i 0).isLt
  have hi1 : (i 1).val < 1024 := (i 1).isLt
  obtain ⟨-, -, -, -, e0, e1⟩ := idx_rows (pointOf i)
  have ht : (pointOf i).val = (i 0).val / 256 := rfl
  refine ⟨pointOf i, flush0_12 _, ?_⟩
  rw [mem_blk12]
  intro a
  match a with
  | ⟨0, _⟩ => show win0_12.index (pointOf i) (0 : Fin 2) * 256 ≤ (i 0).val ∧ (i 0).val < win0_12.index (pointOf i) (0 : Fin 2) * 256 + 256; omega
  | ⟨1, _⟩ => show win0_12.index (pointOf i) (1 : Fin 2) * 1024 ≤ (i 1).val ∧ (i 1).val < win0_12.index (pointOf i) (1 : Fin 2) * 1024 + 1024; omega

/-- After the region the first output array is the first layer of the arrays it was entered with. -/
theorem final11 (c : Dev nD) : (dat0 V c).arrAt 11 cfg0.N = first V c :=
  (dat0 V c).arrAt_eq_of_cover 11 (first V c) (fun t _ => flushed11_eq V c t) cover11

/-- After the region the second output array is the second layer. -/
theorem final12 (c : Dev nD) : (dat0 V c).arrAt 12 cfg0.N = second V c :=
  (dat0 V c).arrAt_eq_of_cover 12 (second V c) (fun t _ => flushed12_eq V c t) cover12

/-- The first input's window never writes back, so its array ends as the region found it. -/
theorem noflush0 : ∀ t : Fin cfg0.N, (cfg0.win 0).flush t = false :=
  (by decide +kernel : ∀ t : Fin grid0.N, win0_0.flush t = false)

theorem kept0 (c : Dev nD) : (dat0 V c).arrAt 0 cfg0.N = V c main_v5 :=
  funext fun i => ((dat0 V c).arrAt_apply_of_forall_not_mem 0 cfg0.N i
    (fun t _ hf => absurd hf (by rw [noflush0 t]; decide))).trans (congrFun (A_eq0 V c 0) i)

end Cert.KernelIdeal.Region0

end
-- ==== Proof.KernelRegion1.lean ====
/-
  What the second kernel region leaves in its output array, as a function of the arrays the region is entered with —
  for ANY entry contents `V`.

  The region runs over 32 grid points; point `t` reads rows `128 t … 128 t + 127` of the input and of the first
  hidden state, and all of the two halves of the output weight and of the bias row, and writes rows
  `128 t … 128 t + 127` of the output. Entry `(p, o)` of what the body stores is the log-softmax, along row `p`, of
  the logits of that row; a row's logits need only that row of the two inputs, so the block written back at `t` is
  block `t` of the whole-array log-softmax, and the thirty-two blocks tile the 4096 rows.
-/
import proofs.«167359_j6451040879094_1_alg».proof.Proof.Gen.KernelIdeal.Frame
import proofs.«167359_j6451040879094_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-! ## The body's matrix product at an entry -/

theorem lhs_0 (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem lhs_1 (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
theorem rhs_0 (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
theorem rhs_1 (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- A 128×1024 block times a 1024×4096 matrix, accumulated from zero, at entry `(p, o)`: the sum over `k` of the
    block's row `p` against the matrix's column `o`. -/
theorem matmul_apply (l : FVec Ideal S128x1024 .bf16) (r : FVec Ideal S1024x4096 .bf16) (p : Fin 128) (o : Fin 4096) :
    matmul dot_S128x1024_S1024x4096_S128x4096_1_0_0_1_n_n none l r (constant S128x4096 .f32 0x00000000#32) (ix2 p o)
      = ∑ k : Fin 1024, l (ix2 p k) * r (ix2 k o) := by
  simp only [matmul]
  rw [Ideal.matmul_constant_zero_apply, ← Equiv.sum_comp (contrEquiv1 dot_S128x1024_S1024x4096_S128x4096_1_0_0_1_n_n 1024 rfl rfl).symm]
  refine Finset.sum_congr rfl fun k _ => ?_
  have hk := contrEquiv1_symm_val dot_S128x1024_S1024x4096_S128x4096_1_0_0_1_n_n 1024 rfl rfl k
  have el : dot_S128x1024_S1024x4096_S128x4096_1_0_0_1_n_n.lhsIdx (ix2 p o) ((contrEquiv1 dot_S128x1024_S1024x4096_S128x4096_1_0_0_1_n_n 1024 rfl rfl).symm k) = ix2 p k := funext fun a => Fin.ext (by
    match a with
    | ⟨0, _⟩ => exact lhs_0 _ _
    | ⟨1, _⟩ => exact (lhs_1 _ _).trans hk)
  have er : dot_S128x1024_S1024x4096_S128x4096_1_0_0_1_n_n.rhsIdx (ix2 p o) ((contrEquiv1 dot_S128x1024_S1024x4096_S128x4096_1_0_0_1_n_n 1024 rfl rfl).symm k) = ix2 k o := funext fun a => Fin.ext (by
    match a with
    | ⟨0, _⟩ => exact (rhs_0 _ _).trans hk
    | ⟨1, _⟩ => exact rhs_1 _ _)
  rw [el, er]

/-! ## A column: a vector as `[128, 1]`, and `[128, 1]` spread over 4096 columns -/

/-- A length-128 vector cast to a column reads, at `(p, u)`, the vector at `p`. -/
theorem colCast_apply {α : Type} (v : S128.Idx → α) (p : Fin 128) (u : Fin 1) :
    shapeCast S128x1 v shapeCasts_S128_S128x1 (ix2 p u) = v (ix1 p) :=
  shapeCast_apply v shapeCasts_S128_S128x1 _ _ (by
    have hu : u.val = 0 := by omega
    rw [Shape.rowMajor_val_two, Shape.rowMajor_val_one]
    show p.val = p.val * 1 + u.val
    omega)

/-- A column spread over 4096 columns reads, at `(p, o)`, the column at `p`. -/
theorem colBcast_apply {α : Type} (v : S128x1.Idx → α) (p : Fin 128) (o : Fin 4096) :
    broadcastTo S128x4096 v broadcasts_S128x1_S128x4096 (ix2 p o) = v (ix2 p (0 : Fin 1)) := by
  refine broadcastTo_apply v broadcasts_S128x1_S128x4096 (ix2 p o) (ix2 p (0 : Fin 1)) fun ax => ?_
  match ax with
  | ⟨0, _⟩ => rfl
  | ⟨1, _⟩ => rfl

/-- Putting coordinate `o` back on the reduced axis of a row index `p` gives `(p, o)`. -/
theorem lift_apply (p : Fin 128) (o : Fin 4096) : reduces_S128x4096_S128.lift (ix1 p) o = ix2 p o :=
  funext fun a => Fin.ext (by
    match a with
    | ⟨0, _⟩ => rfl
    | ⟨1, _⟩ => rfl)

/-! ## The body's stored value at an entry -/

/-- The value a row maximum starts from: the word the body's maximum reduction is given. -/
abbrev negInf : EReal := FloatOps.ofBits (F := Ideal) .f32 0xFF800000#32

/-- The log-softmax the body computes from a block of logits, at entry `(p, o)`: the log-softmax of row `p`. -/
theorem logSoftmax_apply (z : FVec Ideal S128x4096 .f32) (p : Fin 128) (o : Fin 4096) :
    subf (subf z (broadcastTo S128x4096 (shapeCast S128x1 (multiReduction .maximumf [1] S128 z 0xFF800000#32 reduces_S128x4096_S128 (.inl rfl) rfl) shapeCasts_S128_S128x1) broadcasts_S128x1_S128x4096))
      (broadcastTo S128x4096 (log (shapeCast S128x1 (multiReduction .add [1] S128
        (exp (subf z (broadcastTo S128x4096 (shapeCast S128x1 (multiReduction .maximumf [1] S128 z 0xFF800000#32 reduces_S128x4096_S128 (.inl rfl) rfl) shapeCasts_S128_S128x1) broadcasts_S128x1_S128x4096)))
        0x00000000#32 reduces_S128x4096_S128 (.inl rfl) rfl) shapeCasts_S128_S128x1)) broadcasts_S128x1_S128x4096) (ix2 p o)
      = Spec.logSoftmaxAt negInf (fun o' => z (ix2 p o')) o := by
  have hmax : ∀ o'' : Fin 4096, broadcastTo S128x4096 (shapeCast S128x1 (multiReduction .maximumf [1] S128 z 0xFF800000#32 reduces_S128x4096_S128 (.inl rfl) rfl) shapeCasts_S128_S128x1) broadcasts_S128x1_S128x4096 (ix2 p o'')
      = Spec.rowMax negInf (fun o' => z (ix2 p o')) := fun o'' => by
    rw [colBcast_apply, colCast_apply]
    refine (Ideal.multiReduction_maximumf_single z 0xFF800000#32 reduces_S128x4096_S128 (.inl rfl) rfl (ix1 p)).trans ?_
    unfold Spec.rowMax
    refine congrArg (fun f => (Finset.univ : Finset (Fin 4096)).fold max negInf f) (funext fun o' => ?_)
    exact congrArg z (lift_apply p o')
  show (z (ix2 p o) - broadcastTo S128x4096 (shapeCast S128x1 (multiReduction .maximumf [1] S128 z 0xFF800000#32 reduces_S128x4096_S128 (.inl rfl) rfl) shapeCasts_S128_S128x1) broadcasts_S128x1_S128x4096 (ix2 p o))
      - broadcastTo S128x4096 (log (shapeCast S128x1 (multiReduction .add [1] S128
        (exp (subf z (broadcastTo S128x4096 (shapeCast S128x1 (multiReduction .maximumf [1] S128 z 0xFF800000#32 reduces_S128x4096_S128 (.inl rfl) rfl) shapeCasts_S128_S128x1) broadcasts_S128x1_S128x4096)))
        0x00000000#32 reduces_S128x4096_S128 (.inl rfl) rfl) shapeCasts_S128_S128x1)) broadcasts_S128x1_S128x4096 (ix2 p o) = _
  rw [hmax o, colBcast_apply]
  show (z (ix2 p o) - Spec.rowMax negInf (fun o' => z (ix2 p o')))
      - Ideal.log (shapeCast S128x1 (multiReduction .add [1] S128
        (exp (subf z (broadcastTo S128x4096 (shapeCast S128x1 (multiReduction .maximumf [1] S128 z 0xFF800000#32 reduces_S128x4096_S128 (.inl rfl) rfl) shapeCasts_S128_S128x1) broadcasts_S128x1_S128x4096)))
        0x00000000#32 reduces_S128x4096_S128 (.inl rfl) rfl) shapeCasts_S128_S128x1 (ix2 p (0 : Fin 1))) = _
  rw [colCast_apply]
  unfold Spec.logSoftmaxAt
  refine congrArg (fun s => (z (ix2 p o) - Spec.rowMax negInf (fun o' => z (ix2 p o'))) - Ideal.log s) ?_
  refine (Ideal.multiReduction_add_single _ 0x00000000#32 reduces_S128x4096_S128 (.inl rfl) rfl (ix1 p)).trans
    (Finset.sum_congr rfl fun o' _ => ?_)
  refine congrArg Ideal.exp (congrArg₂ (fun a b : EReal => a - b) (congrArg z (lift_apply p o')) ?_)
  exact (congrArg _ (lift_apply p o')).trans (hmax o')

/-- One logit of a block: row `p` of the two input blocks against column `o` of the two weights, plus the bias row at `o`. -/
def blockLogitAt (x h : FVec Ideal S128x1024 .bf16) (Wx Wh : FVec Ideal S1024x4096 .bf16) (w : FVec Ideal S1x4096 .f32)
    (p : Fin 128) (o : Fin 4096) : EReal :=
  ((∑ k : Fin 1024, x (ix2 p k) * Wx (ix2 k o)) + (∑ k : Fin 1024, h (ix2 p k) * Wh (ix2 k o))) + w (ix2 (0 : Fin 1) o)

/-- The value the body stores, at entry `(p, o)`: the log-softmax of row `p` of the block's logits. -/
theorem pay1_apply (x0 x1 : FVec Ideal S128x1024 .bf16) (w0 w1 : FVec Ideal S1024x4096 .bf16) (b : FVec Ideal S1x4096 .f32)
    (p : Fin 128) (o : Fin 4096) :
    k1_pay1 (F := Ideal) x0 x1 w0 w1 b (ix2 p o) = Spec.logSoftmaxAt negInf (fun o' => blockLogitAt x0 x1 w0 w1 b p o') o := by
  unfold k1_pay1
  simp only [shapeCast_self]
  refine (logSoftmax_apply _ p o).trans (congrArg (fun f => Spec.logSoftmaxAt negInf f o) (funext fun o' => ?_))
  show (matmul dot_S128x1024_S1024x4096_S128x4096_1_0_0_1_n_n none x0 w0 (constant S128x4096 .f32 0x00000000#32) (ix2 p o')
      + matmul dot_S128x1024_S1024x4096_S128x4096_1_0_0_1_n_n none x1 w1 (constant S128x4096 .f32 0x00000000#32) (ix2 p o'))
      + broadcastTo S128x4096 b broadcasts_S1x4096_S128x4096 (ix2 p o') = _
  rw [matmul_apply, matmul_apply, broadcastTo_1b_ab_apply]
  rfl

/-! ## The windows' blocks, read at an entry

  Over the thirty-two points: the two row-blocked inputs and the output take block `t` of the rows and the one block
  of the columns; the two weight halves and the bias row are their one whole block. -/

variable (V : (c : Dev nD) → (b : Ref sig .tc) → Buf (Elt Ideal) ((c : Thread nD τ).loc b))

theorem hz : (![0, 0] : Fin 2 → Nat) = fun _ => 0 := funext fun a => by fin_cases a <;> rfl

theorem idx_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_5.index t (0 : Fin 2) = t.val ∧ win1_5.index t (1 : Fin 2) = 0) :=
  (by decide +kernel : ∀ t : Fin grid1.N, _)

theorem idx_whole : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0) :=
  (by decide +kernel : ∀ t : Fin grid1.N, _)

theorem lt32 (t : Fin cfg1.N) : t.val < 32 := lt_of_lt_of_eq t.isLt N_1

/-- Row `p` of point `t`'s block is row `128 t + p` of the array. -/
def rowOf (t : Fin cfg1.N) (p : Fin 128) : Fin 4096 := ⟨t.val * 128 + p.val, by have := lt32 t; have := p.isLt; omega⟩

theorem iblk_0 (c : Dev nD) (t : Fin cfg1.N) (p : Fin 128) (k : Fin 1024) :
    iblk1 V c 0 t (ix2 p k) = V c main_v5 (ix2 (rowOf t p) k) := by
  show V c main_v5 (((cfg1.win 0).blk t).view.emb (ix2 p k)) = V c main_v5 (ix2 (rowOf t p) k)
  refine congrArg (V c main_v5) (funext fun a => Fin.ext ?_)
  obtain ⟨⟨e0, e1⟩, -⟩ := idx_rows t
  match a with
  | ⟨0, _⟩ => show win1_0.index t (0 : Fin 2) * 128 + 1 * p.val = t.val * 128 + p.val; omega
  | ⟨1, _⟩ => show win1_0.index t (1 : Fin 2) * 1024 + 1 * k.val = k.val; omega

theorem iblk_1 (c : Dev nD) (t : Fin cfg1.N) (p : Fin 128) (k : Fin 1024) :
    iblk1 V c 1 t (ix2 p k) = V c main_v24 (ix2 (rowOf t p) k) := by
  show V c main_v24 (((cfg1.win 1).blk t).view.emb (ix2 p k)) = V c main_v24 (ix2 (rowOf t p) k)
  refine congrArg (V c main_v24) (funext fun a => Fin.ext ?_)
  obtain ⟨-, ⟨e0, e1⟩, -⟩ := idx_rows t
  match a with
  | ⟨0, _⟩ => show win1_1.index t (0 : Fin 2) * 128 + 1 * p.val = t.val * 128 + p.val; omega
  | ⟨1, _⟩ => show win1_1.index t (1 : Fin 2) * 1024 + 1 * k.val = k.val; omega

theorem iblk_2 (c : Dev nD) (t : Fin cfg1.N) (k : Fin 1024) (o : Fin 4096) : iblk1 V c 2 t (ix2 k o) = V c main_v27 (ix2 k o) := by
  show V c main_v27 (((cfg1.win 2).blk t).view.emb (ix2 k o)) = V c main_v27 (ix2 k o)
  refine congrArg (V c main_v27) (funext fun a => Fin.ext ?_)
  obtain ⟨⟨e0, e1⟩, -⟩ := idx_whole t
  match a with
  | ⟨0, _⟩ => show win1_2.index t (0 : Fin 2) * 1024 + 1 * k.val = k.val; omega
  | ⟨1, _⟩ => show win1_2.index t (1 : Fin 2) * 4096 + 1 * o.val = o.val; omega

theorem iblk_3 (c : Dev nD) (t : Fin cfg1.N) (k : Fin 1024) (o : Fin 4096) : iblk1 V c 3 t (ix2 k o) = V c main_v30 (ix2 k o) := by
  show V c main_v30 (((cfg1.win 3).blk t).view.emb (ix2 k o)) = V c main_v30 (ix2 k o)
  refine congrArg (V c main_v30) (funext fun a => Fin.ext ?_)
  obtain ⟨-, ⟨e0, e1⟩, -⟩ := idx_whole t
  match a with
  | ⟨0, _⟩ => show win1_3.index t (0 : Fin 2) * 1024 + 1 * k.val = k.val; omega
  | ⟨1, _⟩ => show win1_3.index t (1 : Fin 2) * 4096 + 1 * o.val = o.val; omega

theorem iblk_4 (c : Dev nD) (t : Fin cfg1.N) (o : Fin 4096) : iblk1 V c 4 t (ix2 (0 : Fin 1) o) = V c main_v31 (ix2 (0 : Fin 1) o) := by
  show V c main_v31 (((cfg1.win 4).blk t).view.emb (ix2 (0 : Fin 1) o)) = V c main_v31 (ix2 (0 : Fin 1) o)
  refine congrArg (V c main_v31) (funext fun a => Fin.ext ?_)
  obtain ⟨-, -, e0, e1⟩ := idx_whole t
  match a with
  | ⟨0, _⟩ => show win1_4.index t (0 : Fin 2) * 1 + 1 * 0 = 0; omega
  | ⟨1, _⟩ => show win1_4.index t (1 : Fin 2) * 4096 + 1 * o.val = o.val; omega

/-! ## The output array -/

/-- One logit of whole arrays: row `r` of the two inputs against column `o` of the two (transposed) weight halves, plus
    the bias row at `o`. -/
def logitOf (x h : Spec.Mat 4096 1024) (Wx Wh : Spec.Mat 1024 4096) (w : (⟨2, ![1, 4096]⟩ : Shape).Idx → EReal)
    (r o : Fin 4096) : EReal :=
  ((∑ k : Fin 1024, x (ix2 r k) * Wx (ix2 k o)) + (∑ k : Fin 1024, h (ix2 r k) * Wh (ix2 k o))) + w (ix2 (0 : Fin 1) o)

/-- The row-wise log-softmax of the logits of the arrays the region is entered with. -/
def final (c : Dev nD) : Spec.Mat 4096 4096 :=
  fun i => Spec.logSoftmaxAt negInf
    (fun o' => logitOf (V c main_v5) (V c main_v24) (V c main_v27) (V c main_v30) (V c main_v31) (i 0) o') (i 1)

/-- A block's logit at `(p, o)` is the arrays' logit at `(r, o)` as soon as row `p` of each input block is row `r` of
    its array and the weights and the bias row are the arrays'. -/
theorem blockLogitAt_eq (x h : FVec Ideal S128x1024 .bf16) (Wx Wh : FVec Ideal S1024x4096 .bf16) (w : FVec Ideal S1x4096 .f32)
    (X H : Spec.Mat 4096 1024) (Wx' Wh' : Spec.Mat 1024 4096) (w' : (⟨2, ![1, 4096]⟩ : Shape).Idx → EReal)
    (r : Fin 4096) (p : Fin 128) (o : Fin 4096)
    (hx : ∀ k : Fin 1024, x (ix2 p k) = X (ix2 r k)) (hh : ∀ k : Fin 1024, h (ix2 p k) = H (ix2 r k))
    (hWx : ∀ k : Fin 1024, Wx (ix2 k o) = Wx' (ix2 k o)) (hWh : ∀ k : Fin 1024, Wh (ix2 k o) = Wh' (ix2 k o))
    (hw : w (ix2 (0 : Fin 1) o) = w' (ix2 (0 : Fin 1) o)) :
    blockLogitAt x h Wx Wh w p o = logitOf X H Wx' Wh' w' r o := by
  unfold blockLogitAt logitOf
  simp only [hx, hh, hWx, hWh, hw]

/-- An array index `(128 t + p, o)` is where point `t`'s output block puts its entry `(p, o)`. -/
theorem emb_5 (t : Fin cfg1.N) (p : Fin 128) (o : Fin 4096) :
    ((cfg1.win 5).blk t).view.emb (ix2 p o) = ix2 (rowOf t p) o := by
  refine funext fun a => Fin.ext ?_
  obtain ⟨-, -, e0, e1⟩ := idx_rows t
  match a with
  | ⟨0, _⟩ => show win1_5.index t (0 : Fin 2) * 128 + 1 * p.val = t.val * 128 + p.val; omega
  | ⟨1, _⟩ => show win1_5.index t (1 : Fin 2) * 4096 + 1 * o.val = o.val; omega

/-- What point `t` writes back is block `t` of the whole-array log-softmax. -/
theorem flushed5_eq (c : Dev nD) (t : Fin cfg1.N) :
    (dat1 V c).flushed 5 t = ((cfg1.win 5).blk t).view.read (Elt Ideal) (final V c) := by
  show (cfg1.win 5).cut (grid1.coords t) ((dat1 V c).after 5 t) = _
  rw [after1_5]
  unfold out1_5
  rw [View.canon_unit_zero hz]
  simp only [View.ld_unit_zero (S := S128x1024) hz, View.ld_unit_zero (S := S1024x4096) hz, View.ld_unit_zero (S := S1x4096) hz]
  funext j
  obtain ⟨p, o, rfl⟩ : ∃ (p : Fin 128) (o : Fin 4096), j = ix2 p o := ⟨j 0, j 1, eq_ix2 j⟩
  show k1_pay1 (F := Ideal) (iblk1 V c 0 t) (iblk1 V c 1 t) (iblk1 V c 2 t) (iblk1 V c 3 t) (iblk1 V c 4 t) (ix2 p o)
    = final V c (((cfg1.win 5).blk t).view.emb (ix2 p o))
  rw [emb_5]
  refine (pay1_apply (iblk1 V c 0 t) (iblk1 V c 1 t) (iblk1 V c 2 t) (iblk1 V c 3 t) (iblk1 V c 4 t) p o).trans ?_
  exact congrArg (fun f => Spec.logSoftmaxAt negInf f o) (funext fun o' =>
    blockLogitAt_eq (iblk1 V c 0 t) (iblk1 V c 1 t) (iblk1 V c 2 t) (iblk1 V c 3 t) (iblk1 V c 4 t)
      (V c main_v5) (V c main_v24) (V c main_v27) (V c main_v30) (V c main_v31) (rowOf t p) p o'
      (fun k => iblk_0 V c t p k) (fun k => iblk_1 V c t p k) (fun k => iblk_2 V c t k o') (fun k => iblk_3 V c t k o')
      (iblk_4 V c t o'))

/-- An array index is in point `t`'s output block iff each coordinate is in the block's range on its axis. -/
theorem mem_blk5 (t : Fin cfg1.N) (i : S4096x4096.Idx) :
    i ∈ ((cfg1.win 5).blk t).view.set ↔ ∀ a : Fin 2, win1_5.index t a * S128x4096.size a ≤ (i a).val ∧ (i a).val < win1_5.index t a * S128x4096.size a + S128x4096.size a := by
  show i ∈ ((View.whole main_v32).slice (win1_5.rect t)).set ↔ _
  rw [View.set_slice_whole, Rect.mem_set_unit]
  exact Iff.rfl

/-- The point whose block holds row `r` is `r / 128`. -/
def pointOf (i : S4096x4096.Idx) : Fin cfg1.N :=
  ⟨(i 0).val / 128, by have h : (i 0).val < 4096 := (i 0).isLt; rw [show cfg1.N = 32 from N_1]; omega⟩

theorem cover5 (i : S4096x4096.Idx) : ∃ t : Fin cfg1.N, (cfg1.win 5).flush t = true ∧ i ∈ ((cfg1.win 5).blk t).view.set := by
  have hi0 : (i 0).val < 4096 := (i 0).isLt
  have hi1 : (i 1).val < 4096 := (i 1).isLt
  obtain ⟨-, -, e0, e1⟩ := idx_rows (pointOf i)
  have ht : (pointOf i).val = (i 0).val / 128 := rfl
  refine ⟨pointOf i, flush1_5 _, ?_⟩
  rw [mem_blk5]
  intro a
  match a with
  | ⟨0, _⟩ => show win1_5.index (pointOf i) (0 : Fin 2) * 128 ≤ (i 0).val ∧ (i 0).val < win1_5.index (pointOf i) (0 : Fin 2) * 128 + 128; omega
  | ⟨1, _⟩ => show win1_5.index (pointOf i) (1 : Fin 2) * 4096 ≤ (i 1).val ∧ (i 1).val < win1_5.index (pointOf i) (1 : Fin 2) * 4096 + 4096; omega

/-- After the region the output array is the row-wise log-softmax of the logits of the arrays it was entered with. -/
theorem final5 (c : Dev nD) : (dat1 V c).arrAt 5 cfg1.N = final V c :=
  (dat1 V c).arrAt_eq_of_cover 5 (final V c) (fun t _ => flushed5_eq V c t) cover5

end Cert.KernelIdeal.Region1

end
-- ==== Proof.KernelResults.lean ====
/-
  The idealized kernel program's run, with its two results named.

  The program is two stretches of host operations around two kernel regions. The first stretch lays the arguments out
  for the first region (unit axes dropped, the hidden states split, the recurrent weights transposed, the biases as
  rows); the first region leaves the two new hidden states; the second stretch stacks them into the second result and
  lays the input, the first new hidden state, the two transposed halves of the output weight and the output bias out
  for the second region; the second region leaves the first result. Each array is followed through these four steps
  to a function of the twelve argument arrays.
-/
import proofs.«167359_j6451040879094_1_alg».proof.Proof.KernelRunAll
import proofs.«167359_j6451040879094_1_alg».proof.Proof.KernelRegion0
import proofs.«167359_j6451040879094_1_alg».proof.Proof.KernelRegion1
import Idealize.ShloMosaic.Lib.StableHlo.Run

set_option maxRecDepth 16384

noncomputable section

namespace Cert.KernelIdeal.Results

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The new first hidden state, of core `c`'s argument arrays. -/
abbrev h0 (c : Dev nD) : Spec.Mat 4096 1024 :=
  Spec.h0Of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The new second hidden state. -/
abbrev h1 (c : Dev nD) : Spec.Mat 4096 1024 :=
  Spec.h1Of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-! ## The first region's entry arrays -/

theorem V1_v5 (c : Dev nD) : (V1 m ρ c main_v5 : S4096x1024.Idx → EReal) = Spec.inputOf (m ((c : Thread nD τ).loc main_arg0)) := by
  show StableHlo.after hostOps0 (W0 m ρ c) (Proc.devRef .tc main_v5) = _
  after_results
  rfl
theorem V1_v6 (c : Dev nD) : (V1 m ρ c main_v6 : S4096x1024.Idx → EReal) = Spec.hidden0Of (m ((c : Thread nD τ).loc main_arg1)) := by
  show StableHlo.after hostOps0 (W0 m ρ c) (Proc.devRef .tc main_v6) = _
  after_results
  rfl
theorem V1_v7 (c : Dev nD) : (V1 m ρ c main_v7 : S4096x1024.Idx → EReal) = Spec.hidden1Of (m ((c : Thread nD τ).loc main_arg1)) := by
  show StableHlo.after hostOps0 (W0 m ρ c) (Proc.devRef .tc main_v7) = _
  after_results
  rfl
theorem V1_v9 (c : Dev nD) : (V1 m ρ c main_v9 : S1024x1024.Idx → EReal) = Spec.transposed (m ((c : Thread nD τ).loc main_arg2)) := by
  show StableHlo.after hostOps0 (W0 m ρ c) (Proc.devRef .tc main_v9) = _
  after_results
  rfl
theorem V1_v11 (c : Dev nD) : (V1 m ρ c main_v11 : S1024x1024.Idx → EReal) = Spec.transposed (m ((c : Thread nD τ).loc main_arg3)) := by
  show StableHlo.after hostOps0 (W0 m ρ c) (Proc.devRef .tc main_v11) = _
  after_results
  rfl
theorem V1_v13 (c : Dev nD) : (V1 m ρ c main_v13 : S1024x1024.Idx → EReal) = Spec.transposed (m ((c : Thread nD τ).loc main_arg6)) := by
  show StableHlo.after hostOps0 (W0 m ρ c) (Proc.devRef .tc main_v13) = _
  after_results
  rfl
theorem V1_v15 (c : Dev nD) : (V1 m ρ c main_v15 : S1024x1024.Idx → EReal) = Spec.transposed (m ((c : Thread nD τ).loc main_arg7)) := by
  show StableHlo.after hostOps0 (W0 m ρ c) (Proc.devRef .tc main_v15) = _
  after_results
  rfl

/-- A vector cast to a row and read back as a vector is the vector. -/
theorem rowv_cast (a : Spec.Vect 1024) (h : (⟨1, ![1024]⟩ : Shape).ShapeCasts ⟨2, ![1, 1024]⟩) :
    Region0.rowv (shapeCast ⟨2, ![1, 1024]⟩ a h) = a := funext fun j => by
  obtain ⟨q, rfl⟩ : ∃ q : Fin 1024, j = ix1 q := ⟨j 0, eq_ix1 j⟩
  exact shapeCast_a_1a_apply a h (0 : Fin 1) q

theorem V1_v16 (c : Dev nD) : Region0.rowv (V1 m ρ c main_v16) = (m ((c : Thread nD τ).loc main_arg4)) := by
  have e : (V1 m ρ c main_v16 : S1x1024.Idx → EReal) = shapeCast S1x1024 (m ((c : Thread nD τ).loc main_arg4)) shapeCasts_S1024_S1x1024 := by
    show StableHlo.after hostOps0 (W0 m ρ c) (Proc.devRef .tc main_v16) = _
    after_results
    rfl
  rw [e]; exact rowv_cast _ _
theorem V1_v17 (c : Dev nD) : Region0.rowv (V1 m ρ c main_v17) = (m ((c : Thread nD τ).loc main_arg5)) := by
  have e : (V1 m ρ c main_v17 : S1x1024.Idx → EReal) = shapeCast S1x1024 (m ((c : Thread nD τ).loc main_arg5)) shapeCasts_S1024_S1x1024 := by
    show StableHlo.after hostOps0 (W0 m ρ c) (Proc.devRef .tc main_v17) = _
    after_results
    rfl
  rw [e]; exact rowv_cast _ _
theorem V1_v18 (c : Dev nD) : Region0.rowv (V1 m ρ c main_v18) = (m ((c : Thread nD τ).loc main_arg8)) := by
  have e : (V1 m ρ c main_v18 : S1x1024.Idx → EReal) = shapeCast S1x1024 (m ((c : Thread nD τ).loc main_arg8)) shapeCasts_S1024_S1x1024 := by
    show StableHlo.after hostOps0 (W0 m ρ c) (Proc.devRef .tc main_v18) = _
    after_results
    rfl
  rw [e]; exact rowv_cast _ _
theorem V1_v19 (c : Dev nD) : Region0.rowv (V1 m ρ c main_v19) = (m ((c : Thread nD τ).loc main_arg9)) := by
  have e : (V1 m ρ c main_v19 : S1x1024.Idx → EReal) = shapeCast S1x1024 (m ((c : Thread nD τ).loc main_arg9)) shapeCasts_S1024_S1x1024 := by
    show StableHlo.after hostOps0 (W0 m ρ c) (Proc.devRef .tc main_v19) = _
    after_results
    rfl
  rw [e]; exact rowv_cast _ _

/-! ## What the first region leaves -/

theorem first_eq (c : Dev nD) : Region0.first (V1 m ρ) c = h0 m c := by
  unfold Region0.first
  rw [V1_v5, V1_v6, V1_v9, V1_v11, V1_v16, V1_v17]
  rfl

theorem second_eq (c : Dev nD) : Region0.second (V1 m ρ) c = h1 m c := by
  unfold Region0.second
  rw [first_eq, V1_v7, V1_v13, V1_v15, V1_v18, V1_v19]
  rfl

theorem W2_v20_0 (c : Dev nD) : (W2 m ρ c (Proc.devRef .tc main_v20_0) : S4096x1024.Idx → EReal) = h0 m c :=
  (W2_arr m ρ c 11).trans ((Region0.final11 (V1 m ρ) c).trans (first_eq m ρ c))

theorem W2_v20_1 (c : Dev nD) : (W2 m ρ c (Proc.devRef .tc main_v20_1) : S4096x1024.Idx → EReal) = h1 m c :=
  (W2_arr m ρ c 12).trans ((Region0.final12 (V1 m ρ) c).trans (second_eq m ρ c))

theorem W2_v5 (c : Dev nD) : (W2 m ρ c (Proc.devRef .tc main_v5) : S4096x1024.Idx → EReal) = Spec.inputOf (m ((c : Thread nD τ).loc main_arg0)) :=
  (W2_arr m ρ c 0).trans ((Region0.kept0 (V1 m ρ) c).trans (V1_v5 m ρ c))

theorem W2_arg10 (c : Dev nD) : W2 m ρ c (Proc.devRef .tc main_arg10) = (m ((c : Thread nD τ).loc main_arg10)) := by
  refine (W2_of_ne m ρ c main_arg10 (by decide)).trans ?_
  show StableHlo.after hostOps0 (W0 m ρ c) (Proc.devRef .tc main_arg10) = _
  after_results

theorem W2_arg11 (c : Dev nD) : W2 m ρ c (Proc.devRef .tc main_arg11) = (m ((c : Thread nD τ).loc main_arg11)) := by
  refine (W2_of_ne m ρ c main_arg11 (by decide)).trans ?_
  show StableHlo.after hostOps0 (W0 m ρ c) (Proc.devRef .tc main_arg11) = _
  after_results

/-! ## The second region's entry arrays -/

/-- The first half of the output weight's columns, transposed. -/
abbrev wx (c : Dev nD) : Spec.Mat 1024 4096 :=
  transpose S1024x4096 [1, 0] (extractStridedSlice S4096x1024 ![0, 0] (m ((c : Thread nD τ).loc main_arg10)) slices_S4096x2048_S4096x1024_0_0) transposes_S4096x1024_S1024x4096_1_0
/-- The second half of the output weight's columns, transposed. -/
abbrev wh (c : Dev nD) : Spec.Mat 1024 4096 :=
  transpose S1024x4096 [1, 0] (extractStridedSlice S4096x1024 ![0, 1024] (m ((c : Thread nD τ).loc main_arg10)) slices_S4096x2048_S4096x1024_0_1024) transposes_S4096x1024_S1024x4096_1_0

theorem V3_v5 (c : Dev nD) : (V3 m ρ c main_v5 : S4096x1024.Idx → EReal) = Spec.inputOf (m ((c : Thread nD τ).loc main_arg0)) := by
  show StableHlo.after hostOps1 (W2 m ρ c) (Proc.devRef .tc main_v5) = _
  after_results
  exact W2_v5 m ρ c
theorem V3_v24 (c : Dev nD) : (V3 m ρ c main_v24 : S4096x1024.Idx → EReal) = h0 m c := by
  show StableHlo.after hostOps1 (W2 m ρ c) (Proc.devRef .tc main_v24) = _
  after_results
  rw [W2_v20_0]
  rfl
theorem V3_v27 (c : Dev nD) : (V3 m ρ c main_v27 : S1024x4096.Idx → EReal) = wx m c := by
  show StableHlo.after hostOps1 (W2 m ρ c) (Proc.devRef .tc main_v27) = _
  after_results
  rw [W2_arg10]
  rfl
theorem V3_v30 (c : Dev nD) : (V3 m ρ c main_v30 : S1024x4096.Idx → EReal) = wh m c := by
  show StableHlo.after hostOps1 (W2 m ρ c) (Proc.devRef .tc main_v30) = _
  after_results
  rw [W2_arg10]
  rfl
theorem V3_v31 (c : Dev nD) : (V3 m ρ c main_v31 : S1x4096.Idx → EReal) = shapeCast S1x4096 (m ((c : Thread nD τ).loc main_arg11)) shapeCasts_S4096_S1x4096 := by
  show StableHlo.after hostOps1 (W2 m ρ c) (Proc.devRef .tc main_v31) = _
  after_results
  rw [W2_arg11]
  rfl

/-! ## What the second region leaves -/

/-- A logit taken against the two transposed halves of the output weight is the logit taken against the weight's two
    column ranges; the bias row is the bias. -/
theorem logitOf_eq (x h : Spec.Mat 4096 1024) (W : Spec.Mat 4096 2048) (w : Spec.Vect 4096)
    (hs0 : (⟨2, ![4096, 2048]⟩ : Shape).Slices ![0, 0] ⟨2, ![4096, 1024]⟩)
    (hs1 : (⟨2, ![4096, 2048]⟩ : Shape).Slices ![0, 1024] ⟨2, ![4096, 1024]⟩)
    (ht : (⟨2, ![4096, 1024]⟩ : Shape).Transposes [1, 0] ⟨2, ![1024, 4096]⟩)
    (hc : (⟨1, ![4096]⟩ : Shape).ShapeCasts ⟨2, ![1, 4096]⟩) (r o : Fin 4096) :
    Region1.logitOf x h (transpose ⟨2, ![1024, 4096]⟩ [1, 0] (extractStridedSlice ⟨2, ![4096, 1024]⟩ ![0, 0] W hs0) ht)
        (transpose ⟨2, ![1024, 4096]⟩ [1, 0] (extractStridedSlice ⟨2, ![4096, 1024]⟩ ![0, 1024] W hs1) ht)
        (shapeCast ⟨2, ![1, 4096]⟩ w hc) r o
      = Spec.logitAt x h W w r o := by
  have e0 : ∀ k : Fin 1024, extractStridedSlice ⟨2, ![4096, 1024]⟩ ![0, 0] W hs0 (ix2 o k) = W (ix2 o (Fin.castAdd 1024 k)) :=
    fun k => slice2_axis1_apply 0 W hs0 o k (Fin.castAdd 1024 k) (by simp)
  have e1 : ∀ k : Fin 1024, extractStridedSlice ⟨2, ![4096, 1024]⟩ ![0, 1024] W hs1 (ix2 o k) = W (ix2 o (Fin.natAdd 1024 k)) :=
    fun k => slice2_axis1_apply 1024 W hs1 o k (Fin.natAdd 1024 k) rfl
  have t0 : ∀ k : Fin 1024, transpose ⟨2, ![1024, 4096]⟩ [1, 0] (extractStridedSlice ⟨2, ![4096, 1024]⟩ ![0, 0] W hs0) ht (ix2 k o)
      = W (ix2 o (Fin.castAdd 1024 k)) := fun k => (transpose_ix2_apply _ ht k o).trans (e0 k)
  have t1 : ∀ k : Fin 1024, transpose ⟨2, ![1024, 4096]⟩ [1, 0] (extractStridedSlice ⟨2, ![4096, 1024]⟩ ![0, 1024] W hs1) ht (ix2 k o)
      = W (ix2 o (Fin.natAdd 1024 k)) := fun k => (transpose_ix2_apply _ ht k o).trans (e1 k)
  unfold Region1.logitOf Spec.logitAt
  exact congrArg₂ (fun p q : EReal => p + q)
    (congrArg₂ (fun p q : EReal => p + q)
      (Finset.sum_congr rfl fun k _ => congrArg (fun v : EReal => x (ix2 r k) * v) (t0 k))
      (Finset.sum_congr rfl fun k _ => congrArg (fun v : EReal => h (ix2 r k) * v) (t1 k)))
    (shapeCast_a_1a_apply w hc (0 : Fin 1) o)

theorem final_eq (c : Dev nD) :
    Region1.final (V3 m ρ) c = Spec.result0 Region1.negInf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  unfold Region1.final
  rw [V3_v5, V3_v24, V3_v27, V3_v30, V3_v31]
  funext i
  show Spec.logSoftmaxAt Region1.negInf (fun o' => Region1.logitOf _ _ _ _ _ (i 0) o') (i 1)
    = Spec.logSoftmaxAt Region1.negInf (fun o' => Spec.logitAt _ _ _ _ (i 0) o') (i 1)
  exact congrArg (fun f => Spec.logSoftmaxAt Region1.negInf f (i 1)) (funext fun o' => logitOf_eq _ _ _ _ _ _ _ _ (i 0) o')

/-! ## The two results -/

theorem W4_v32 (c : Dev nD) :
    (W4 m ρ c (Proc.devRef .tc main_v32) : S4096x4096.Idx → EReal)
      = Spec.result0 Region1.negInf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) :=
  (W4_arr m ρ c 5).trans ((Region1.final5 (V3 m ρ) c).trans (final_eq m ρ c))

theorem W4_v23 (c : Dev nD) :
    (W4 m ρ c (Proc.devRef .tc main_v23) : S2x4096x1024.Idx → EReal)
      = Spec.result1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_of_ne m ρ c main_v23 (by decide)).trans ?_
  show StableHlo.after hostOps1 (W2 m ρ c) (Proc.devRef .tc main_v23) = _
  after_results
  rw [W2_v20_0, W2_v20_1]
  rfl

/-- Every weakly fair execution of the idealized kernel program terminates with the first result at the log-softmax of
    the logits, the second at the two new hidden states stacked, and the argument arrays as launched. -/
theorem run : θ_run defs (onTc (τ := τ) (main (F := Ideal))) ⟨m, fun _ => 0, ρ⟩ (fun r => ∀ c : Dev nD,
      r.2.mem ((c.tc : Thread nD τ).loc main_v32) = Spec.result0 Region1.negInf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11))
      ∧ r.2.mem ((c.tc : Thread nD τ).loc main_v23) = Spec.result1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v32 (by decide))).trans (W4_v32 m ρ c),
     (h c _ (mem_uc main_v23 (by decide))).trans (W4_v23 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c)⟩)
    (RunAll.run_W4 m ρ)

end Cert.KernelIdeal.Results

end
-- ==== Proof.ReferenceValue.lean ====
/-
  What the reference program's operations compute, read at an index: each is one of the specification's functions.

  The reference takes each tanh layer as `tanh (((x·A + a) + g·B) + a')` over whole 4096-row arrays, the logits as ONE
  product of the input and the new first hidden state joined along the columns (2048 of them) with the whole output
  weight transposed, and the log-softmax through an outlined function that takes the row maximum once more against
  the value the maximum starts from. Read at an entry these are the specification's `layerAt`, `logitAt` and
  `logSoftmaxAt`: the layer's four terms added in another order, the 2048-term sum split into its two halves, and the
  repeated maximum absorbed.
-/
import proofs.«167359_j6451040879094_1_alg».proof.Proof.Gen.ReferenceIdeal
import proofs.«167359_j6451040879094_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-! ## The two matrix products at an entry -/

theorem lhsA_0 (i : S4096x1024.Idx) (q : dot_S4096x1024_S1024x1024_S4096x1024_1_0_0_1_n_n.contr.Idx) : (dot_S4096x1024_S1024x1024_S4096x1024_1_0_0_1_n_n.lhsIdx i q 0).val = (i 0).val := by
  unfold DotDims.lhsIdx
  rw [dif_neg (show ¬(0 : Fin S4096x1024.rank) ∈ dot_S4096x1024_S1024x1024_S4096x1024_1_0_0_1_n_n.lhsBatch by decide), dif_pos (show (0 : Fin S4096x1024.rank) ∈ dot_S4096x1024_S1024x1024_S4096x1024_1_0_0_1_n_n.lhsNonContracting by decide)]
  rfl
theorem lhsA_1 (i : S4096x1024.Idx) (q : dot_S4096x1024_S1024x1024_S4096x1024_1_0_0_1_n_n.contr.Idx) : (dot_S4096x1024_S1024x1024_S4096x1024_1_0_0_1_n_n.lhsIdx i q 1).val = (q ⟨0, by decide⟩).val :=
  dot_S4096x1024_S1024x1024_S4096x1024_1_0_0_1_n_n.lhsIdx_val_of_single rfl i q
theorem rhsA_0 (i : S4096x1024.Idx) (q : dot_S4096x1024_S1024x1024_S4096x1024_1_0_0_1_n_n.contr.Idx) : (dot_S4096x1024_S1024x1024_S4096x1024_1_0_0_1_n_n.rhsIdx i q 0).val = (q ⟨0, by decide⟩).val :=
  dot_S4096x1024_S1024x1024_S4096x1024_1_0_0_1_n_n.rhsIdx_val_of_single rfl i q
theorem rhsA_1 (i : S4096x1024.Idx) (q : dot_S4096x1024_S1024x1024_S4096x1024_1_0_0_1_n_n.contr.Idx) : (dot_S4096x1024_S1024x1024_S4096x1024_1_0_0_1_n_n.rhsIdx i q 1).val = (i 1).val := by
  unfold DotDims.rhsIdx
  rw [dif_neg (show ¬(1 : Fin S1024x1024.rank) ∈ dot_S4096x1024_S1024x1024_S4096x1024_1_0_0_1_n_n.rhsBatch by decide), dif_pos (show (1 : Fin S1024x1024.rank) ∈ dot_S4096x1024_S1024x1024_S4096x1024_1_0_0_1_n_n.rhsNonContracting by decide)]
  rfl

/-- A 4096×1024 array times a 1024×1024 matrix at entry `(b, j)`. -/
theorem dotA_apply (l : FVec Ideal S4096x1024 .f32) (r : FVec Ideal S1024x1024 .f32) (b : Fin 4096) (j : Fin 1024) :
    Host.dotGeneral dot_S4096x1024_S1024x1024_S4096x1024_1_0_0_1_n_n none l r (ix2 b j) = ∑ k : Fin 1024, l (ix2 b k) * r (ix2 k j) := by
  simp only [Host.dotGeneral]
  rw [Ideal.dotGeneral_apply, ← Equiv.sum_comp (contrEquiv1 dot_S4096x1024_S1024x1024_S4096x1024_1_0_0_1_n_n 1024 rfl rfl).symm]
  refine Finset.sum_congr rfl fun k _ => ?_
  have hk := contrEquiv1_symm_val dot_S4096x1024_S1024x1024_S4096x1024_1_0_0_1_n_n 1024 rfl rfl k
  have el : dot_S4096x1024_S1024x1024_S4096x1024_1_0_0_1_n_n.lhsIdx (ix2 b j) ((contrEquiv1 dot_S4096x1024_S1024x1024_S4096x1024_1_0_0_1_n_n 1024 rfl rfl).symm k) = ix2 b k := funext fun a => Fin.ext (by
    match a with
    | ⟨0, _⟩ => exact lhsA_0 _ _
    | ⟨1, _⟩ => exact (lhsA_1 _ _).trans hk)
  have er : dot_S4096x1024_S1024x1024_S4096x1024_1_0_0_1_n_n.rhsIdx (ix2 b j) ((contrEquiv1 dot_S4096x1024_S1024x1024_S4096x1024_1_0_0_1_n_n 1024 rfl rfl).symm k) = ix2 k j := funext fun a => Fin.ext (by
    match a with
    | ⟨0, _⟩ => exact (rhsA_0 _ _).trans hk
    | ⟨1, _⟩ => exact rhsA_1 _ _)
  rw [el, er]

theorem lhsB_0 (i : S4096x4096.Idx) (q : dot_S4096x2048_S2048x4096_S4096x4096_1_0_0_1_n_n.contr.Idx) : (dot_S4096x2048_S2048x4096_S4096x4096_1_0_0_1_n_n.lhsIdx i q 0).val = (i 0).val := by
  unfold DotDims.lhsIdx
  rw [dif_neg (show ¬(0 : Fin S4096x2048.rank) ∈ dot_S4096x2048_S2048x4096_S4096x4096_1_0_0_1_n_n.lhsBatch by decide), dif_pos (show (0 : Fin S4096x2048.rank) ∈ dot_S4096x2048_S2048x4096_S4096x4096_1_0_0_1_n_n.lhsNonContracting by decide)]
  rfl
theorem lhsB_1 (i : S4096x4096.Idx) (q : dot_S4096x2048_S2048x4096_S4096x4096_1_0_0_1_n_n.contr.Idx) : (dot_S4096x2048_S2048x4096_S4096x4096_1_0_0_1_n_n.lhsIdx i q 1).val = (q ⟨0, by decide⟩).val :=
  dot_S4096x2048_S2048x4096_S4096x4096_1_0_0_1_n_n.lhsIdx_val_of_single rfl i q
theorem rhsB_0 (i : S4096x4096.Idx) (q : dot_S4096x2048_S2048x4096_S4096x4096_1_0_0_1_n_n.contr.Idx) : (dot_S4096x2048_S2048x4096_S4096x4096_1_0_0_1_n_n.rhsIdx i q 0).val = (q ⟨0, by decide⟩).val :=
  dot_S4096x2048_S2048x4096_S4096x4096_1_0_0_1_n_n.rhsIdx_val_of_single rfl i q
theorem rhsB_1 (i : S4096x4096.Idx) (q : dot_S4096x2048_S2048x4096_S4096x4096_1_0_0_1_n_n.contr.Idx) : (dot_S4096x2048_S2048x4096_S4096x4096_1_0_0_1_n_n.rhsIdx i q 1).val = (i 1).val := by
  unfold DotDims.rhsIdx
  rw [dif_neg (show ¬(1 : Fin S2048x4096.rank) ∈ dot_S4096x2048_S2048x4096_S4096x4096_1_0_0_1_n_n.rhsBatch by decide), dif_pos (show (1 : Fin S2048x4096.rank) ∈ dot_S4096x2048_S2048x4096_S4096x4096_1_0_0_1_n_n.rhsNonContracting by decide)]
  rfl

/-- A 4096×2048 array times a 2048×4096 matrix at entry `(b, o)`. -/
theorem dotB_apply (l : FVec Ideal S4096x2048 .f32) (r : FVec Ideal S2048x4096 .f32) (b o : Fin 4096) :
    Host.dotGeneral dot_S4096x2048_S2048x4096_S4096x4096_1_0_0_1_n_n none l r (ix2 b o) = ∑ k : Fin 2048, l (ix2 b k) * r (ix2 k o) := by
  simp only [Host.dotGeneral]
  rw [Ideal.dotGeneral_apply, ← Equiv.sum_comp (contrEquiv1 dot_S4096x2048_S2048x4096_S4096x4096_1_0_0_1_n_n 2048 rfl rfl).symm]
  refine Finset.sum_congr rfl fun k _ => ?_
  have hk := contrEquiv1_symm_val dot_S4096x2048_S2048x4096_S4096x4096_1_0_0_1_n_n 2048 rfl rfl k
  have el : dot_S4096x2048_S2048x4096_S4096x4096_1_0_0_1_n_n.lhsIdx (ix2 b o) ((contrEquiv1 dot_S4096x2048_S2048x4096_S4096x4096_1_0_0_1_n_n 2048 rfl rfl).symm k) = ix2 b k := funext fun a => Fin.ext (by
    match a with
    | ⟨0, _⟩ => exact lhsB_0 _ _
    | ⟨1, _⟩ => exact (lhsB_1 _ _).trans hk)
  have er : dot_S4096x2048_S2048x4096_S4096x4096_1_0_0_1_n_n.rhsIdx (ix2 b o) ((contrEquiv1 dot_S4096x2048_S2048x4096_S4096x4096_1_0_0_1_n_n 2048 rfl rfl).symm k) = ix2 k o := funext fun a => Fin.ext (by
    match a with
    | ⟨0, _⟩ => exact (rhsB_0 _ _).trans hk
    | ⟨1, _⟩ => exact rhsB_1 _ _)
  rw [el, er]

/-! ## A bias spread over the rows -/

/-- A length-1024 bias, made a row and spread over 4096 rows, reads at `(b, j)` the bias at `j`. -/
theorem biasA_apply (a : FVec Ideal S1024 .f32) (b : Fin 4096) (j : Fin 1024) :
    (broadcastInDim S4096x1024 ![0, 1] bcast_S1x1024_S4096x1024_0_1 (broadcastInDim S1x1024 ![1] bcast_S1024_S1x1024_1 a)) (ix2 b j) = a (ix1 j) :=
  (broadcastInDim_apply _ bcast_S1x1024_S4096x1024_0_1 (broadcastInDim S1x1024 ![1] bcast_S1024_S1x1024_1 a) (ix2 b j) (ix2 (0 : Fin 1) j)
    (fun ax => match ax with
      | ⟨0, _⟩ => by show 0 = if (1 : Nat) = 1 then 0 else b.val; rw [if_pos rfl]
      | ⟨1, _⟩ => by show j.val = if (1024 : Nat) = 1 then 0 else j.val; rw [if_neg (by decide)])).trans
  (broadcastInDim_apply _ bcast_S1024_S1x1024_1 a (ix2 (0 : Fin 1) j) (ix1 j)
    (fun ax => match ax with
      | ⟨0, _⟩ => by show j.val = if (1024 : Nat) = 1 then 0 else j.val; rw [if_neg (by decide)]))

/-- A length-4096 bias, made a row and spread over 4096 rows, reads at `(b, o)` the bias at `o`. -/
theorem biasB_apply (a : FVec Ideal S4096 .f32) (b o : Fin 4096) :
    (broadcastInDim S4096x4096 ![0, 1] bcast_S1x4096_S4096x4096_0_1 (broadcastInDim S1x4096 ![1] bcast_S4096_S1x4096_1 a)) (ix2 b o) = a (ix1 o) :=
  (broadcastInDim_apply _ bcast_S1x4096_S4096x4096_0_1 (broadcastInDim S1x4096 ![1] bcast_S4096_S1x4096_1 a) (ix2 b o) (ix2 (0 : Fin 1) o)
    (fun ax => match ax with
      | ⟨0, _⟩ => by show 0 = if (1 : Nat) = 1 then 0 else b.val; rw [if_pos rfl]
      | ⟨1, _⟩ => by show o.val = if (4096 : Nat) = 1 then 0 else o.val; rw [if_neg (by decide)])).trans
  (broadcastInDim_apply _ bcast_S4096_S1x4096_1 a (ix2 (0 : Fin 1) o) (ix1 o)
    (fun ax => match ax with
      | ⟨0, _⟩ => by show o.val = if (4096 : Nat) = 1 then 0 else o.val; rw [if_neg (by decide)]))

/-! ## A tanh layer -/

/-- The reference's tanh layer is the specification's: its four terms are added in another order. -/
theorem layer_eq (x g : FVec Ideal S4096x1024 .f32) (A B : FVec Ideal S1024x1024 .f32) (a a' : FVec Ideal S1024 .f32) :
    Host.tanh (addf (addf (addf (Host.dotGeneral dot_S4096x1024_S1024x1024_S4096x1024_1_0_0_1_n_n none x A) (broadcastInDim S4096x1024 ![0, 1] bcast_S1x1024_S4096x1024_0_1 (broadcastInDim S1x1024 ![1] bcast_S1024_S1x1024_1 a))) (Host.dotGeneral dot_S4096x1024_S1024x1024_S4096x1024_1_0_0_1_n_n none g B)) (broadcastInDim S4096x1024 ![0, 1] bcast_S1x1024_S4096x1024_0_1 (broadcastInDim S1x1024 ![1] bcast_S1024_S1x1024_1 a')))
      = Spec.layer x g A B a a' := by
  funext i
  obtain ⟨b, j, rfl⟩ : ∃ (b : Fin 4096) (j : Fin 1024), i = ix2 b j := ⟨i 0, i 1, eq_ix2 i⟩
  show Ideal.tanh (((Host.dotGeneral dot_S4096x1024_S1024x1024_S4096x1024_1_0_0_1_n_n none x A (ix2 b j) + (broadcastInDim S4096x1024 ![0, 1] bcast_S1x1024_S4096x1024_0_1 (broadcastInDim S1x1024 ![1] bcast_S1024_S1x1024_1 a)) (ix2 b j))
      + Host.dotGeneral dot_S4096x1024_S1024x1024_S4096x1024_1_0_0_1_n_n none g B (ix2 b j)) + (broadcastInDim S4096x1024 ![0, 1] bcast_S1x1024_S4096x1024_0_1 (broadcastInDim S1x1024 ![1] bcast_S1024_S1x1024_1 a')) (ix2 b j)) = Spec.layerAt x g A B a a' b j
  rw [dotA_apply, dotA_apply, biasA_apply, biasA_apply]
  unfold Spec.layerAt
  rw [Spec.add4_comm]

/-! ## The logits -/

/-- The reference's logit — one product over the 2048 joined columns — is the specification's two sums. -/
theorem logit_eq (x h : FVec Ideal S4096x1024 .f32) (W : FVec Ideal S4096x2048 .f32) (w : FVec Ideal S4096 .f32) (b o : Fin 4096) :
    addf (Host.dotGeneral dot_S4096x2048_S2048x4096_S4096x4096_1_0_0_1_n_n none
        (concatenate S4096x2048 1 [⟨S4096x1024, x⟩, ⟨S4096x1024, h⟩] concatenates_S4096x1024_S4096x1024_S4096x2048_d1)
        (transpose S2048x4096 [1, 0] W transposes_S4096x2048_S2048x4096_1_0)) (broadcastInDim S4096x4096 ![0, 1] bcast_S1x4096_S4096x4096_0_1 (broadcastInDim S1x4096 ![1] bcast_S4096_S1x4096_1 w)) (ix2 b o)
      = Spec.logitAt x h W w b o := by
  show Host.dotGeneral dot_S4096x2048_S2048x4096_S4096x4096_1_0_0_1_n_n none
        (concatenate S4096x2048 1 [⟨S4096x1024, x⟩, ⟨S4096x1024, h⟩] concatenates_S4096x1024_S4096x1024_S4096x2048_d1)
        (transpose S2048x4096 [1, 0] W transposes_S4096x2048_S2048x4096_1_0) (ix2 b o) + (broadcastInDim S4096x4096 ![0, 1] bcast_S1x4096_S4096x4096_0_1 (broadcastInDim S1x4096 ![1] bcast_S4096_S1x4096_1 w)) (ix2 b o) = _
  rw [dotB_apply, biasB_apply, Spec.sum_2048]
  unfold Spec.logitAt
  have eL : ∀ k : Fin 1024, concatenate S4096x2048 1 [⟨S4096x1024, x⟩, ⟨S4096x1024, h⟩] concatenates_S4096x1024_S4096x1024_S4096x2048_d1 (ix2 b (Fin.castAdd 1024 k)) = x (ix2 b k) :=
    fun k => concatenate_pair_apply_left (1 : Fin 2) x h concatenates_S4096x1024_S4096x1024_S4096x2048_d1 (ix2 b (Fin.castAdd 1024 k)) rfl (ix2 b k)
      (fun ax => match ax with | ⟨0, _⟩ => rfl | ⟨1, _⟩ => rfl)
  have eR : ∀ k : Fin 1024, concatenate S4096x2048 1 [⟨S4096x1024, x⟩, ⟨S4096x1024, h⟩] concatenates_S4096x1024_S4096x1024_S4096x2048_d1 (ix2 b (Fin.natAdd 1024 k)) = h (ix2 b k) :=
    fun k => concatenate_pair_apply_right (1 : Fin 2) x h concatenates_S4096x1024_S4096x1024_S4096x2048_d1 (ix2 b (Fin.natAdd 1024 k)) rfl rfl (ix2 b k)
      (fun ax hax => match ax, hax with | ⟨0, _⟩, _ => rfl | ⟨1, _⟩, hax => absurd (Fin.ext rfl) hax)
      (by show k.val + 1024 = 1024 + k.val; omega)
  simp only [eL, eR]
  exact congrArg₂ (fun p q : EReal => p + q)
    (congrArg₂ (fun p q : EReal => p + q)
      (Finset.sum_congr rfl fun k _ => congrArg (fun v : EReal => x (ix2 b k) * v)
        (transpose_ix2_apply W transposes_S4096x2048_S2048x4096_1_0 (Fin.castAdd 1024 k) o))
      (Finset.sum_congr rfl fun k _ => congrArg (fun v : EReal => h (ix2 b k) * v)
        (transpose_ix2_apply W transposes_S4096x2048_S2048x4096_1_0 (Fin.natAdd 1024 k) o)))
    rfl

/-! ## The outlined log-softmax -/

theorem red : S4096x4096.Reduces [1] S4096 := by decide

/-- Putting coordinate `o` back on the reduced axis of a row index `b` gives `(b, o)`. -/
theorem lift_apply (b : Fin 4096) (o : Fin 4096) : red.lift (ix1 b) o = ix2 b o :=
  funext fun a => Fin.ext (by
    match a with
    | ⟨0, _⟩ => rfl
    | ⟨1, _⟩ => rfl)

/-- A length-4096 vector made a column reads, at `(b, u)`, the vector at `b`. -/
theorem col_apply {α : Type} (v : S4096.Idx → α) (b : Fin 4096) (u : Fin 1) :
    broadcastInDim S4096x1 ![0] bcast_S4096_S4096x1_0 v (ix2 b u) = v (ix1 b) :=
  broadcastInDim_apply _ bcast_S4096_S4096x1_0 v (ix2 b u) (ix1 b)
    (fun ax => match ax with
      | ⟨0, _⟩ => by show b.val = if (4096 : Nat) = 1 then 0 else b.val; rw [if_neg (by decide)])

/-- A column spread over 4096 columns reads, at `(b, o)`, the column at `b`. -/
theorem spread_apply {α : Type} (v : S4096x1.Idx → α) (b o : Fin 4096) :
    broadcastInDim S4096x4096 ![0, 1] bcast_S4096x1_S4096x4096_0_1 v (ix2 b o) = v (ix2 b (0 : Fin 1)) :=
  broadcastInDim_apply _ bcast_S4096x1_S4096x4096_0_1 v (ix2 b o) (ix2 b (0 : Fin 1))
    (fun ax => match ax with
      | ⟨0, _⟩ => by show b.val = if (4096 : Nat) = 1 then 0 else b.val; rw [if_neg (by decide)]
      | ⟨1, _⟩ => by show 0 = if (1 : Nat) = 1 then 0 else o.val; rw [if_pos rfl])

/-- The value the row maximum starts from: the word the reference's maximum reduction is given. -/
abbrev negInf : EReal := FloatOps.ofBits (F := Ideal) .f32 0xFF800000#32

/-- The row maximum the reference subtracts, spread over the row: the specification's row maximum. -/
theorem maxB_apply (z : FVec Ideal S4096x4096 .f32) (b o : Fin 4096) :
    (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf z (constant S_ .f32 0xFF800000#32) reducesTo_S4096x4096_S4096_d1 h_S_)))) (ix2 b o) = Spec.rowMax negInf (fun o' => z (ix2 b o')) := by
  refine (spread_apply _ b o).trans ((col_apply _ b (0 : Fin 1)).trans ?_)
  refine (maximumf_apply _ _ (ix1 b)).trans ?_
  haveI : Std.Commutative (FloatOps.maximumf (F := Ideal) (φ := .f32)) := ⟨fun p q => max_comm p q⟩
  haveI : Std.Associative (FloatOps.maximumf (F := Ideal) (φ := .f32)) := ⟨fun p q r => max_assoc p q r⟩
  have e : Host.reduce FloatOps.maximumf z (constant S_ .f32 0xFF800000#32) reducesTo_S4096x4096_S4096_d1 h_S_ (ix1 b)
      = Spec.rowMax negInf (fun o' => z (ix2 b o')) := by
    refine (Host.reduce_eq_fold_single (FloatOps.maximumf (F := Ideal) (φ := .f32)) z (constant S_ .f32 0xFF800000#32) reducesTo_S4096x4096_S4096_d1 red h_S_ (ix1 b)).trans ?_
    unfold Spec.rowMax
    refine congrArg (fun f => (Finset.univ : Finset (Fin 4096)).fold max negInf f) (funext fun o' => ?_)
    exact congrArg z (lift_apply b o')
  refine (congrArg₂ (fun p q : EReal => max p q) (rfl : broadcastInDim S4096 ![] bcast_S_S4096 (constant (F := Ideal) S_ .f32 0xFF800000#32) (ix1 b) = negInf) e).trans ?_
  exact Spec.max_rowMax negInf _

/-- The reference's log-softmax at entry `(b, o)`: the specification's log-softmax of row `b`. -/
theorem logSoftmax_apply (z : FVec Ideal S4096x4096 .f32) (b o : Fin 4096) :
    subf (subf z (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf z (constant S_ .f32 0xFF800000#32) reducesTo_S4096x4096_S4096_d1 h_S_))))) (broadcastInDim S4096x4096 ![0, 1] bcast_S4096x1_S4096x4096_0_1 (Host.log (broadcastInDim S4096x1 ![0] bcast_S4096_S4096x1_0 (Host.reduceAdd (Host.exp (subf z (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf z (constant S_ .f32 0xFF800000#32) reducesTo_S4096x4096_S4096_d1 h_S_)))))) (constant S_ .f32 0x00000000#32) reducesTo_S4096x4096_S4096_d1 h_S_)))) (ix2 b o) = Spec.logSoftmaxAt negInf (fun o' => z (ix2 b o')) o := by
  show (z (ix2 b o) - (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf z (constant S_ .f32 0xFF800000#32) reducesTo_S4096x4096_S4096_d1 h_S_)))) (ix2 b o)) - (broadcastInDim S4096x4096 ![0, 1] bcast_S4096x1_S4096x4096_0_1 (Host.log (broadcastInDim S4096x1 ![0] bcast_S4096_S4096x1_0 (Host.reduceAdd (Host.exp (subf z (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf z (constant S_ .f32 0xFF800000#32) reducesTo_S4096x4096_S4096_d1 h_S_)))))) (constant S_ .f32 0x00000000#32) reducesTo_S4096x4096_S4096_d1 h_S_)))) (ix2 b o) = _
  rw [maxB_apply]
  refine congrArg (fun s => (z (ix2 b o) - Spec.rowMax negInf (fun o' => z (ix2 b o'))) - s) ?_
  refine (spread_apply _ b o).trans ?_
  show Ideal.log (broadcastInDim S4096x1 ![0] bcast_S4096_S4096x1_0 (Host.reduceAdd (Host.exp (subf z (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf z (constant S_ .f32 0xFF800000#32) reducesTo_S4096x4096_S4096_d1 h_S_)))))) (constant S_ .f32 0x00000000#32) reducesTo_S4096x4096_S4096_d1 h_S_) (ix2 b (0 : Fin 1))) = _
  refine congrArg Ideal.log ((col_apply _ b (0 : Fin 1)).trans ?_)
  show Ideal.hostReduceAdd reducesTo_S4096x4096_S4096_d1 (Host.exp (subf z (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf z (constant S_ .f32 0xFF800000#32) reducesTo_S4096x4096_S4096_d1 h_S_)))))) (Ideal.ofBits .f32 0x00000000#32) (ix1 b) = _
  refine (Ideal.hostReduceAdd_single reducesTo_S4096x4096_S4096_d1 red _ _ (ix1 b)).trans ?_
  rw [Ideal.ofBits_zero_f32, zero_add]
  refine Finset.sum_congr rfl fun o' _ => ?_
  show Ideal.exp (z (red.lift (ix1 b) o') - (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf z (constant S_ .f32 0xFF800000#32) reducesTo_S4096x4096_S4096_d1 h_S_)))) (red.lift (ix1 b) o')) = _
  refine congrArg Ideal.exp (congrArg₂ (fun p q : EReal => p - q) (congrArg z (lift_apply b o')) ?_)
  exact (congrArg _ (lift_apply b o')).trans (maxB_apply z b o')

/-! ## The two results -/

/-- The reference's first result as a whole array: the specification's `out`. -/
theorem out_eq (x h : FVec Ideal S4096x1024 .f32) (W : FVec Ideal S4096x2048 .f32) (w : FVec Ideal S4096 .f32)
    (z : FVec Ideal S4096x4096 .f32)
    (hz : z = addf (Host.dotGeneral dot_S4096x2048_S2048x4096_S4096x4096_1_0_0_1_n_n none
        (concatenate S4096x2048 1 [⟨S4096x1024, x⟩, ⟨S4096x1024, h⟩] concatenates_S4096x1024_S4096x1024_S4096x2048_d1)
        (transpose S2048x4096 [1, 0] W transposes_S4096x2048_S2048x4096_1_0)) (broadcastInDim S4096x4096 ![0, 1] bcast_S1x4096_S4096x4096_0_1 (broadcastInDim S1x4096 ![1] bcast_S4096_S1x4096_1 w))) :
    subf (subf z (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf z (constant S_ .f32 0xFF800000#32) reducesTo_S4096x4096_S4096_d1 h_S_))))) (broadcastInDim S4096x4096 ![0, 1] bcast_S4096x1_S4096x4096_0_1 (Host.log (broadcastInDim S4096x1 ![0] bcast_S4096_S4096x1_0 (Host.reduceAdd (Host.exp (subf z (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf z (constant S_ .f32 0xFF800000#32) reducesTo_S4096x4096_S4096_d1 h_S_)))))) (constant S_ .f32 0x00000000#32) reducesTo_S4096x4096_S4096_d1 h_S_)))) = Spec.out negInf x h W w := by
  funext i
  obtain ⟨b, o, rfl⟩ : ∃ (b o : Fin 4096), i = ix2 b o := ⟨i 0, i 1, eq_ix2 i⟩
  refine (logSoftmax_apply z b o).trans ?_
  show _ = Spec.logSoftmaxAt negInf (fun o' => Spec.logitAt x h W w b o') o
  refine congrArg (fun f => Spec.logSoftmaxAt negInf f o) (funext fun o' => ?_)
  rw [hz]
  exact logit_eq x h W w b o'

end Cert.ReferenceIdeal.RefValue

end
-- ==== Proof.ReferenceResults.lean ====
/-
  The idealized reference program's run, with its two results named by the specification's functions of the twelve
  argument arrays.

  The program is 53 host operations in a line. They are read back in four stretches, cut where a value is used again:
  the first tanh layer (15 operations), the second layer (14), the stacking of the two layers and the logits over the
  input joined with the first layer (9), and the outlined log-softmax (15). Each stretch's outputs are its operations
  applied to the buffers it starts from, whatever those hold; joined, the first result is the log-softmax of the logits
  and the second the two layers stacked, and the lemmas of Proof/ReferenceValue.lean read each as the specification's
  function.
-/
import proofs.«167359_j6451040879094_1_alg».proof.Proof.ReferenceRun
import proofs.«167359_j6451040879094_1_alg».proof.Proof.ReferenceValue
import Idealize.ShloMosaic.Lib.Pipeline.Frame

set_option maxRecDepth 16384

noncomputable section

namespace Cert.ReferenceIdeal.Results

open Cert.ReferenceIdeal Cert.ReferenceIdeal.Gen Idealize.ShloMosaic Idealize.ShloMosaic.TcCoe Idealize.SL.Sem Idealize.ShloMosaic.StableHlo

section Stretches

variable {F : FTy → Type} [FloatOps F]

/-- The first tanh layer's operations. -/
abbrev opsA : List (HloOp τ sig (Elt F)) :=
  [ reshape main_arg0 main_v0 rfl shapeCasts_S1x4096x1024_S4096x1024,
    unary main_arg2 main_v1 ((transpose S1024x1024 [1, 0] · transposes_S1024x1024_S1024x1024_1_0) : (⟨S1024x1024, .f32⟩ : BufTy).Contents (Elt F) → (⟨S1024x1024, .f32⟩ : BufTy).Contents (Elt F)),
    binary main_v0 main_v1 main_v2 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg4 main_v3 (broadcastInDim S1x1024 ![1] bcast_S1024_S1x1024_1 : (⟨S1024, .f32⟩ : BufTy).Contents (Elt F) → (⟨S1x1024, .f32⟩ : BufTy).Contents (Elt F)),
    unary main_v3 main_v4 (broadcastInDim S4096x1024 ![0, 1] bcast_S1x1024_S4096x1024_0_1 : (⟨S1x1024, .f32⟩ : BufTy).Contents (Elt F) → (⟨S4096x1024, .f32⟩ : BufTy).Contents (Elt F)),
    binary main_v2 main_v4 main_v5 (addf : (⟨S4096x1024, .f32⟩ : BufTy).Contents (Elt F) → (⟨S4096x1024, .f32⟩ : BufTy).Contents (Elt F) → (⟨S4096x1024, .f32⟩ : BufTy).Contents (Elt F)),
    unary main_arg1 main_v6 ((extractStridedSlice S1x4096x1024 ![0, 0, 0] · slices_S2x4096x1024_S1x4096x1024_0_0_0) : (⟨S2x4096x1024, .f32⟩ : BufTy).Contents (Elt F) → (⟨S1x4096x1024, .f32⟩ : BufTy).Contents (Elt F)),
    reshape main_v6 main_v7 rfl shapeCasts_S1x4096x1024_S4096x1024,
    unary main_arg3 main_v8 ((transpose S1024x1024 [1, 0] · transposes_S1024x1024_S1024x1024_1_0) : (⟨S1024x1024, .f32⟩ : BufTy).Contents (Elt F) → (⟨S1024x1024, .f32⟩ : BufTy).Contents (Elt F)),
    binary main_v7 main_v8 main_v9 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    binary main_v5 main_v9 main_v10 (addf : (⟨S4096x1024, .f32⟩ : BufTy).Contents (Elt F) → (⟨S4096x1024, .f32⟩ : BufTy).Contents (Elt F) → (⟨S4096x1024, .f32⟩ : BufTy).Contents (Elt F)),
    unary main_arg5 main_v11 (broadcastInDim S1x1024 ![1] bcast_S1024_S1x1024_1 : (⟨S1024, .f32⟩ : BufTy).Contents (Elt F) → (⟨S1x1024, .f32⟩ : BufTy).Contents (Elt F)),
    unary main_v11 main_v12 (broadcastInDim S4096x1024 ![0, 1] bcast_S1x1024_S4096x1024_0_1 : (⟨S1x1024, .f32⟩ : BufTy).Contents (Elt F) → (⟨S4096x1024, .f32⟩ : BufTy).Contents (Elt F)),
    binary main_v10 main_v12 main_v13 (addf : (⟨S4096x1024, .f32⟩ : BufTy).Contents (Elt F) → (⟨S4096x1024, .f32⟩ : BufTy).Contents (Elt F) → (⟨S4096x1024, .f32⟩ : BufTy).Contents (Elt F)),
    unary main_v13 main_v14 (Host.tanh : (⟨S4096x1024, .f32⟩ : BufTy).Contents (Elt F) → (⟨S4096x1024, .f32⟩ : BufTy).Contents (Elt F)) ]

/-- The second tanh layer's operations. -/
abbrev opsB : List (HloOp τ sig (Elt F)) :=
  [ unary main_arg6 main_v15 ((transpose S1024x1024 [1, 0] · transposes_S1024x1024_S1024x1024_1_0) : (⟨S1024x1024, .f32⟩ : BufTy).Contents (Elt F) → (⟨S1024x1024, .f32⟩ : BufTy).Contents (Elt F)),
    binary main_v14 main_v15 main_v16 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg8 main_v17 (broadcastInDim S1x1024 ![1] bcast_S1024_S1x1024_1 : (⟨S1024, .f32⟩ : BufTy).Contents (Elt F) → (⟨S1x1024, .f32⟩ : BufTy).Contents (Elt F)),
    unary main_v17 main_v18 (broadcastInDim S4096x1024 ![0, 1] bcast_S1x1024_S4096x1024_0_1 : (⟨S1x1024, .f32⟩ : BufTy).Contents (Elt F) → (⟨S4096x1024, .f32⟩ : BufTy).Contents (Elt F)),
    binary main_v16 main_v18 main_v19 (addf : (⟨S4096x1024, .f32⟩ : BufTy).Contents (Elt F) → (⟨S4096x1024, .f32⟩ : BufTy).Contents (Elt F) → (⟨S4096x1024, .f32⟩ : BufTy).Contents (Elt F)),
    unary main_arg1 main_v20 ((extractStridedSlice S1x4096x1024 ![1, 0, 0] · slices_S2x4096x1024_S1x4096x1024_1_0_0) : (⟨S2x4096x1024, .f32⟩ : BufTy).Contents (Elt F) → (⟨S1x4096x1024, .f32⟩ : BufTy).Contents (Elt F)),
    reshape main_v20 main_v21 rfl shapeCasts_S1x4096x1024_S4096x1024,
    unary main_arg7 main_v22 ((transpose S1024x1024 [1, 0] · transposes_S1024x1024_S1024x1024_1_0) : (⟨S1024x1024, .f32⟩ : BufTy).Contents (Elt F) → (⟨S1024x1024, .f32⟩ : BufTy).Contents (Elt F)),
    binary main_v21 main_v22 main_v23 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    binary main_v19 main_v23 main_v24 (addf : (⟨S4096x1024, .f32⟩ : BufTy).Contents (Elt F) → (⟨S4096x1024, .f32⟩ : BufTy).Contents (Elt F) → (⟨S4096x1024, .f32⟩ : BufTy).Contents (Elt F)),
    unary main_arg9 main_v25 (broadcastInDim S1x1024 ![1] bcast_S1024_S1x1024_1 : (⟨S1024, .f32⟩ : BufTy).Contents (Elt F) → (⟨S1x1024, .f32⟩ : BufTy).Contents (Elt F)),
    unary main_v25 main_v26 (broadcastInDim S4096x1024 ![0, 1] bcast_S1x1024_S4096x1024_0_1 : (⟨S1x1024, .f32⟩ : BufTy).Contents (Elt F) → (⟨S4096x1024, .f32⟩ : BufTy).Contents (Elt F)),
    binary main_v24 main_v26 main_v27 (addf : (⟨S4096x1024, .f32⟩ : BufTy).Contents (Elt F) → (⟨S4096x1024, .f32⟩ : BufTy).Contents (Elt F) → (⟨S4096x1024, .f32⟩ : BufTy).Contents (Elt F)),
    unary main_v27 main_v28 (Host.tanh : (⟨S4096x1024, .f32⟩ : BufTy).Contents (Elt F) → (⟨S4096x1024, .f32⟩ : BufTy).Contents (Elt F)) ]

/-- The stacking of the two layers, and the logits. -/
abbrev opsC : List (HloOp τ sig (Elt F)) :=
  [ unary main_v14 main_v29 (broadcastInDim S1x4096x1024 ![1, 2] bcast_S4096x1024_S1x4096x1024_1_2 : (⟨S4096x1024, .f32⟩ : BufTy).Contents (Elt F) → (⟨S1x4096x1024, .f32⟩ : BufTy).Contents (Elt F)),
    unary main_v28 main_v30 (broadcastInDim S1x4096x1024 ![1, 2] bcast_S4096x1024_S1x4096x1024_1_2 : (⟨S4096x1024, .f32⟩ : BufTy).Contents (Elt F) → (⟨S1x4096x1024, .f32⟩ : BufTy).Contents (Elt F)),
    binary main_v29 main_v30 main_v31 ((fun a b => concatenate S2x4096x1024 0 [⟨S1x4096x1024, a⟩, ⟨S1x4096x1024, b⟩] concatenates_S1x4096x1024_S1x4096x1024_S2x4096x1024_d0) : (⟨S1x4096x1024, .f32⟩ : BufTy).Contents (Elt F) → (⟨S1x4096x1024, .f32⟩ : BufTy).Contents (Elt F) → (⟨S2x4096x1024, .f32⟩ : BufTy).Contents (Elt F)),
    binary main_v0 main_v14 main_v32 ((fun a b => concatenate S4096x2048 1 [⟨S4096x1024, a⟩, ⟨S4096x1024, b⟩] concatenates_S4096x1024_S4096x1024_S4096x2048_d1) : (⟨S4096x1024, .f32⟩ : BufTy).Contents (Elt F) → (⟨S4096x1024, .f32⟩ : BufTy).Contents (Elt F) → (⟨S4096x2048, .f32⟩ : BufTy).Contents (Elt F)),
    unary main_arg10 main_v33 ((transpose S2048x4096 [1, 0] · transposes_S4096x2048_S2048x4096_1_0) : (⟨S4096x2048, .f32⟩ : BufTy).Contents (Elt F) → (⟨S2048x4096, .f32⟩ : BufTy).Contents (Elt F)),
    binary main_v32 main_v33 main_v34 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    unary main_arg11 main_v35 (broadcastInDim S1x4096 ![1] bcast_S4096_S1x4096_1 : (⟨S4096, .f32⟩ : BufTy).Contents (Elt F) → (⟨S1x4096, .f32⟩ : BufTy).Contents (Elt F)),
    unary main_v35 main_v36 (broadcastInDim S4096x4096 ![0, 1] bcast_S1x4096_S4096x4096_0_1 : (⟨S1x4096, .f32⟩ : BufTy).Contents (Elt F) → (⟨S4096x4096, .f32⟩ : BufTy).Contents (Elt F)),
    binary main_v34 main_v36 main_v37 (addf : (⟨S4096x4096, .f32⟩ : BufTy).Contents (Elt F) → (⟨S4096x4096, .f32⟩ : BufTy).Contents (Elt F) → (⟨S4096x4096, .f32⟩ : BufTy).Contents (Elt F)) ]

/-- The outlined log-softmax's operations. -/
abbrev opsD : List (HloOp τ sig (Elt F)) :=
  [ TRef.nullary (TRef.of (T := ⟨S_, .f32⟩) main_call0_cst) (constant S_ .f32 0xFF800000#32),
    TRef.binary (TRef.of (T := ⟨S4096x4096, .f32⟩) main_v37) (TRef.of (T := ⟨S_, .f32⟩) main_call0_cst) (TRef.of (T := ⟨S4096, .f32⟩) main_call0_v0) (fun x v => Host.reduce FloatOps.maximumf x v reducesTo_S4096x4096_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x4096, .f32⟩) main_call0_v4) (broadcastInDim S4096x4096 ![0, 1] bcast_S4096x1_S4096x4096_0_1),
    TRef.binary (TRef.of (T := ⟨S4096x4096, .f32⟩) main_v37) (TRef.of (T := ⟨S4096x4096, .f32⟩) main_call0_v4) (TRef.of (T := ⟨S4096x4096, .f32⟩) main_call0_v5) subf,
    TRef.unary (TRef.of (T := ⟨S4096x4096, .f32⟩) main_call0_v5) (TRef.of (T := ⟨S4096x4096, .f32⟩) main_call0_v6) Host.exp,
    TRef.nullary (TRef.of (T := ⟨S_, .f32⟩) main_call0_cst_1) (constant S_ .f32 0x00000000#32),
    TRef.binary (TRef.of (T := ⟨S4096x4096, .f32⟩) main_call0_v6) (TRef.of (T := ⟨S_, .f32⟩) main_call0_cst_1) (TRef.of (T := ⟨S4096, .f32⟩) main_call0_v7) (fun x v => Host.reduceAdd x v reducesTo_S4096x4096_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x4096, .f32⟩) main_call0_v10) (broadcastInDim S4096x4096 ![0, 1] bcast_S4096x1_S4096x4096_0_1),
    TRef.binary (TRef.of (T := ⟨S4096x4096, .f32⟩) main_call0_v5) (TRef.of (T := ⟨S4096x4096, .f32⟩) main_call0_v10) (TRef.of (T := ⟨S4096x4096, .f32⟩) main_v38) subf ]

set_option maxRecDepth 65536 in
/-- The program's operations are the four stretches in order. -/
theorem ops_split : (RunP.ops : List (HloOp τ sig (Elt F))) = opsA ++ (opsB ++ (opsC ++ opsD)) := rfl

/-! ### The first layer's stretch -/

theorem A_v0 (V : Valuation τ sig (Elt F)) :
    after opsA V (Proc.devRef .tc main_v0) = (shapeCast _ (V (Proc.devRef .tc main_arg0)) shapeCasts_S1x4096x1024_S4096x1024) := by
  after_results_simp <;> rfl

theorem A_v14 (V : Valuation τ sig (Elt F)) :
    after opsA V (Proc.devRef .tc main_v14)
      = Host.tanh (addf (addf (addf (Host.dotGeneral dot_S4096x1024_S1024x1024_S4096x1024_1_0_0_1_n_n none (shapeCast _ (V (Proc.devRef .tc main_arg0)) shapeCasts_S1x4096x1024_S4096x1024) (transpose S1024x1024 [1, 0] (V (Proc.devRef .tc main_arg2)) transposes_S1024x1024_S1024x1024_1_0)) (broadcastInDim S4096x1024 ![0, 1] bcast_S1x1024_S4096x1024_0_1 (broadcastInDim S1x1024 ![1] bcast_S1024_S1x1024_1 (V (Proc.devRef .tc main_arg4))))) (Host.dotGeneral dot_S4096x1024_S1024x1024_S4096x1024_1_0_0_1_n_n none (shapeCast _ (extractStridedSlice S1x4096x1024 ![0, 0, 0] (V (Proc.devRef .tc main_arg1)) slices_S2x4096x1024_S1x4096x1024_0_0_0) shapeCasts_S1x4096x1024_S4096x1024) (transpose S1024x1024 [1, 0] (V (Proc.devRef .tc main_arg3)) transposes_S1024x1024_S1024x1024_1_0))) (broadcastInDim S4096x1024 ![0, 1] bcast_S1x1024_S4096x1024_0_1 (broadcastInDim S1x1024 ![1] bcast_S1024_S1x1024_1 (V (Proc.devRef .tc main_arg5))))) := by
  after_results_simp <;> rfl

theorem A_keep_arg1 (V : Valuation τ sig (Elt F)) : after opsA V (Proc.devRef .tc main_arg1) = V (Proc.devRef .tc main_arg1) := by
  after_results_simp <;> rfl
theorem A_keep_arg6 (V : Valuation τ sig (Elt F)) : after opsA V (Proc.devRef .tc main_arg6) = V (Proc.devRef .tc main_arg6) := by
  after_results_simp <;> rfl
theorem A_keep_arg7 (V : Valuation τ sig (Elt F)) : after opsA V (Proc.devRef .tc main_arg7) = V (Proc.devRef .tc main_arg7) := by
  after_results_simp <;> rfl
theorem A_keep_arg8 (V : Valuation τ sig (Elt F)) : after opsA V (Proc.devRef .tc main_arg8) = V (Proc.devRef .tc main_arg8) := by
  after_results_simp <;> rfl
theorem A_keep_arg9 (V : Valuation τ sig (Elt F)) : after opsA V (Proc.devRef .tc main_arg9) = V (Proc.devRef .tc main_arg9) := by
  after_results_simp <;> rfl
theorem A_keep_arg10 (V : Valuation τ sig (Elt F)) : after opsA V (Proc.devRef .tc main_arg10) = V (Proc.devRef .tc main_arg10) := by
  after_results_simp <;> rfl
theorem A_keep_arg11 (V : Valuation τ sig (Elt F)) : after opsA V (Proc.devRef .tc main_arg11) = V (Proc.devRef .tc main_arg11) := by
  after_results_simp <;> rfl

/-! ### The second layer's stretch -/

theorem B_v28 (V : Valuation τ sig (Elt F)) :
    after opsB V (Proc.devRef .tc main_v28)
      = Host.tanh (addf (addf (addf (Host.dotGeneral dot_S4096x1024_S1024x1024_S4096x1024_1_0_0_1_n_n none (V (Proc.devRef .tc main_v14)) (transpose S1024x1024 [1, 0] (V (Proc.devRef .tc main_arg6)) transposes_S1024x1024_S1024x1024_1_0)) (broadcastInDim S4096x1024 ![0, 1] bcast_S1x1024_S4096x1024_0_1 (broadcastInDim S1x1024 ![1] bcast_S1024_S1x1024_1 (V (Proc.devRef .tc main_arg8))))) (Host.dotGeneral dot_S4096x1024_S1024x1024_S4096x1024_1_0_0_1_n_n none (shapeCast _ (extractStridedSlice S1x4096x1024 ![1, 0, 0] (V (Proc.devRef .tc main_arg1)) slices_S2x4096x1024_S1x4096x1024_1_0_0) shapeCasts_S1x4096x1024_S4096x1024) (transpose S1024x1024 [1, 0] (V (Proc.devRef .tc main_arg7)) transposes_S1024x1024_S1024x1024_1_0))) (broadcastInDim S4096x1024 ![0, 1] bcast_S1x1024_S4096x1024_0_1 (broadcastInDim S1x1024 ![1] bcast_S1024_S1x1024_1 (V (Proc.devRef .tc main_arg9))))) := by
  after_results_simp <;> rfl

theorem B_keep_v0 (V : Valuation τ sig (Elt F)) : after opsB V (Proc.devRef .tc main_v0) = V (Proc.devRef .tc main_v0) := by
  after_results_simp <;> rfl
theorem B_keep_v14 (V : Valuation τ sig (Elt F)) : after opsB V (Proc.devRef .tc main_v14) = V (Proc.devRef .tc main_v14) := by
  after_results_simp <;> rfl
theorem B_keep_arg10 (V : Valuation τ sig (Elt F)) : after opsB V (Proc.devRef .tc main_arg10) = V (Proc.devRef .tc main_arg10) := by
  after_results_simp <;> rfl
theorem B_keep_arg11 (V : Valuation τ sig (Elt F)) : after opsB V (Proc.devRef .tc main_arg11) = V (Proc.devRef .tc main_arg11) := by
  after_results_simp <;> rfl

/-! ### The stacking and the logits -/

theorem C_v31 (V : Valuation τ sig (Elt F)) :
    after opsC V (Proc.devRef .tc main_v31)
      = concatenate S2x4096x1024 0 [⟨S1x4096x1024, (broadcastInDim S1x4096x1024 ![1, 2] bcast_S4096x1024_S1x4096x1024_1_2 (V (Proc.devRef .tc main_v14)))⟩, ⟨S1x4096x1024, (broadcastInDim S1x4096x1024 ![1, 2] bcast_S4096x1024_S1x4096x1024_1_2 (V (Proc.devRef .tc main_v28)))⟩] concatenates_S1x4096x1024_S1x4096x1024_S2x4096x1024_d0 := by
  after_results <;> rfl

theorem C_v37 (V : Valuation τ sig (Elt F)) :
    after opsC V (Proc.devRef .tc main_v37)
      = addf (Host.dotGeneral dot_S4096x2048_S2048x4096_S4096x4096_1_0_0_1_n_n none
          (concatenate S4096x2048 1 [⟨S4096x1024, (V (Proc.devRef .tc main_v0))⟩, ⟨S4096x1024, (V (Proc.devRef .tc main_v14))⟩] concatenates_S4096x1024_S4096x1024_S4096x2048_d1)
          (transpose S2048x4096 [1, 0] (V (Proc.devRef .tc main_arg10)) transposes_S4096x2048_S2048x4096_1_0)) (broadcastInDim S4096x4096 ![0, 1] bcast_S1x4096_S4096x4096_0_1 (broadcastInDim S1x4096 ![1] bcast_S4096_S1x4096_1 (V (Proc.devRef .tc main_arg11)))) := by
  after_results <;> rfl

/-! ### The log-softmax's stretch

  The outlined function's operations move each value to its buffer's own type and back along equations that hold by
  computation; there and back is the identity (for any typed reference), and at the stretch's one input and its one
  result the single move is the identity too. -/

/-- To a typed reference's buffer type and back is the identity. -/
theorem ofBuf_toBuf {T : BufTy} (x : TRef sig T) (v : T.Contents (Elt F)) : x.ofBuf (x.toBuf v) = v := by
  unfold TRef.ofBuf TRef.toBuf
  simp

/-- The stretch's input read at its tensor type is the buffer's contents. -/
theorem leaf_v37 (V : Valuation τ sig (Elt F)) :
    (TRef.of (T := ⟨S4096x4096, .f32⟩) main_v37).ofBuf (V (Proc.devRef .tc main_v37)) = V (Proc.devRef .tc main_v37) := rfl

/-- A value stored as the stretch's result is that value. -/
theorem out_v38 (w : (⟨S4096x4096, .f32⟩ : BufTy).Contents (Elt F)) :
    (TRef.of (T := ⟨S4096x4096, .f32⟩) main_v38).toBuf w = w := rfl

theorem D_v38 (V : Valuation τ sig (Elt F)) :
    after opsD V (Proc.devRef .tc main_v38)
      = subf (subf (V (Proc.devRef .tc main_v37)) (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf (V (Proc.devRef .tc main_v37)) (constant S_ .f32 0xFF800000#32) reducesTo_S4096x4096_S4096_d1 h_S_))))) (broadcastInDim S4096x4096 ![0, 1] bcast_S4096x1_S4096x4096_0_1 (Host.log (broadcastInDim S4096x1 ![0] bcast_S4096_S4096x1_0 (Host.reduceAdd (Host.exp (subf (V (Proc.devRef .tc main_v37)) (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf (V (Proc.devRef .tc main_v37)) (constant S_ .f32 0xFF800000#32) reducesTo_S4096x4096_S4096_d1 h_S_)))))) (constant S_ .f32 0x00000000#32) reducesTo_S4096x4096_S4096_d1 h_S_)))) := by
  after_results_simp
  simp only [ofBuf_toBuf]
  refine (out_v38 _).trans ?_
  simp only [leaf_v37 V]

theorem D_keep_v31 (V : Valuation τ sig (Elt F)) : after opsD V (Proc.devRef .tc main_v31) = V (Proc.devRef .tc main_v31) := by
  after_results_simp <;> rfl

end Stretches

/-! ## The two results at the extended reals -/

/-- After the first stretch the first new hidden state is the specification's layer of the buffers it starts from. -/
theorem A_v14_spec (V : Valuation τ sig (Elt Ideal)) :
    after (opsA (F := Ideal)) V (Proc.devRef .tc main_v14)
      = Spec.layer (shapeCast S4096x1024 (V (Proc.devRef .tc main_arg0)) shapeCasts_S1x4096x1024_S4096x1024) (shapeCast S4096x1024 (extractStridedSlice S1x4096x1024 ![0, 0, 0] (V (Proc.devRef .tc main_arg1)) slices_S2x4096x1024_S1x4096x1024_0_0_0) shapeCasts_S1x4096x1024_S4096x1024) (transpose S1024x1024 [1, 0] (V (Proc.devRef .tc main_arg2)) transposes_S1024x1024_S1024x1024_1_0) (transpose S1024x1024 [1, 0] (V (Proc.devRef .tc main_arg3)) transposes_S1024x1024_S1024x1024_1_0)
          (V (Proc.devRef .tc main_arg4)) (V (Proc.devRef .tc main_arg5)) :=
  (A_v14 V).trans (RefValue.layer_eq _ _ _ _ _ _)

/-- After the second stretch the second new hidden state is the specification's layer of the buffers it starts from. -/
theorem B_v28_spec (V : Valuation τ sig (Elt Ideal)) :
    after (opsB (F := Ideal)) V (Proc.devRef .tc main_v28)
      = Spec.layer (V (Proc.devRef .tc main_v14)) (shapeCast S4096x1024 (extractStridedSlice S1x4096x1024 ![1, 0, 0] (V (Proc.devRef .tc main_arg1)) slices_S2x4096x1024_S1x4096x1024_1_0_0) shapeCasts_S1x4096x1024_S4096x1024) (transpose S1024x1024 [1, 0] (V (Proc.devRef .tc main_arg6)) transposes_S1024x1024_S1024x1024_1_0) (transpose S1024x1024 [1, 0] (V (Proc.devRef .tc main_arg7)) transposes_S1024x1024_S1024x1024_1_0)
          (V (Proc.devRef .tc main_arg8)) (V (Proc.devRef .tc main_arg9)) :=
  (B_v28 V).trans (RefValue.layer_eq _ _ _ _ _ _)

variable (m : (ℓ : Loc nD τ sig) → Buf (Elt Ideal) ℓ) (ρ : Dev nD → PrngReg)

/-- The reference's first result is the specification's. -/
theorem v38_eq (c : Dev nD) :
    after (RunP.ops (F := Ideal)) (launchContents m c) (Proc.devRef .tc main_v38)
      = Spec.result0 RefValue.negInf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) := by
  rw [ops_split, StableHlo.after_append, StableHlo.after_append, StableHlo.after_append]
  rw [D_v38, C_v37, B_keep_v0, B_keep_v14, B_keep_arg10, B_keep_arg11, A_v0, A_v14_spec, A_keep_arg10, A_keep_arg11]
  exact RefValue.out_eq (Spec.inputOf (m ((c.tc : Thread nD τ).loc main_arg0))) (Spec.h0Of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg10)) (m ((c.tc : Thread nD τ).loc main_arg11)) _ rfl

/-- The reference's second result is the specification's. -/
theorem v31_eq (c : Dev nD) :
    after (RunP.ops (F := Ideal)) (launchContents m c) (Proc.devRef .tc main_v31)
      = Spec.result1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [ops_split, StableHlo.after_append, StableHlo.after_append, StableHlo.after_append]
  rw [D_keep_v31, C_v31, B_keep_v14, B_v28_spec, A_v14_spec, A_keep_arg1, A_keep_arg6, A_keep_arg7, A_keep_arg8, A_keep_arg9]
  rfl

/-- Every weakly fair execution of the idealized reference terminates with the first result at the log-softmax of the
    logits, the second at the two new hidden states stacked, and the argument arrays as launched. -/
theorem run : θ_run defs (onTc (τ := τ) (main (F := Ideal))) ⟨m, fun _ => 0, ρ⟩ (fun r => ∀ c : Dev nD,
      r.2.mem ((c.tc : Thread nD τ).loc main_v38) = Spec.result0 RefValue.negInf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11))
      ∧ r.2.mem ((c.tc : Thread nD τ).loc main_v31) = Spec.result1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨((h c).1 main_v38).trans (v38_eq m c), ((h c).1 main_v31).trans (v31_eq m c), (h c).2⟩)
    (RunP.run (F := Ideal) m ρ)

end Cert.ReferenceIdeal.Results

end
-- ==== Proof.lean ====
/-
  A two-layer tanh recurrent cell at one time step followed by a linear layer and a row-wise log-softmax, computed by
  two kernel regions, against the same network written with whole-array operations.

  Over the extended reals both programs return, for input x, hidden states g0, g1, recurrent weights and biases, output
  weight W and output bias w,

    h0 = tanh (x·W_ih0ᵀ + g0·W_hh0ᵀ + b_ih0 + b_hh0),   h1 = tanh (h0·W_ih1ᵀ + g1·W_hh1ᵀ + b_ih1 + b_hh1),
    out = log_softmax over each row of ([x, h0]·Wᵀ + w),   and (h0, h1) stacked.

  The kernel program adds each layer's four terms in another order than the reference (addition of extended reals is
  commutative and associative), takes the product with W as two products with its two column halves (a sum over 2048
  terms is the sum of its halves), and takes each row's maximum once where the reference's log-softmax takes it once
  more against the value the maximum starts from (which it already dominates). No step needs the entries finite, so the
  precondition is not opened. A format change is the identity on the extended reals, and the tiling of the rows over
  grid points does not show in the result: each region's output array is one function of the arrays the region is
  entered with (Proof/KernelRegion0.lean, Proof/KernelRegion1.lean), followed through the host operations between the
  regions (Proof/KernelResults.lean); the reference's operations are read at an index in Proof/ReferenceValue.lean; the
  functions both sides meet in are Proof/Spec.lean.

  The idealization rewrote no operation, so the kernel program's sanctioned idealization is its own text.
-/
import proofs.«167359_j6451040879094_1_alg».proof.Defs
import proofs.«167359_j6451040879094_1_alg».proof.Proof.Gen.Kernel
import proofs.«167359_j6451040879094_1_alg».proof.Proof.Gen.Kernel.Frame
import proofs.«167359_j6451040879094_1_alg».proof.Proof.Gen.KernelIdeal
import proofs.«167359_j6451040879094_1_alg».proof.Proof.Gen.KernelIdeal.Frame
import proofs.«167359_j6451040879094_1_alg».proof.Proof.Gen.ReferenceIdeal
import proofs.«167359_j6451040879094_1_alg».proof.Proof.Gen.Pre_finite_inputs
import proofs.«167359_j6451040879094_1_alg».proof.Proof.KernelResults
import proofs.«167359_j6451040879094_1_alg».proof.Proof.ReferenceResults
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, the results dropped. -/
theorem frame_referenceIdeal : Cert.frame_ReferenceIdeal := fun m ρ _ =>
  (θ_run Cert.ReferenceIdeal.defs _ _).mono (fun _ h c => (h c).2.2) (Cert.ReferenceIdeal.Results.run m ρ)

/-- From memories that agree on the twelve arguments both idealized programs end with the same two results: the
    specification's functions of those arguments. -/
theorem algebraic : Cert.algebraic_KernelIdeal_ReferenceIdeal := by
  intro m ρ m' ρ' _ hagree
  refine ⟨fun c => Cert.Spec.result0 Cert.KernelIdeal.Region1.negInf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Spec.result1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Results.run m ρ, ?_⟩
  refine (θ_run Cert.ReferenceIdeal.defs _ _).mono (fun _ h c => ?_) (Cert.ReferenceIdeal.Results.run m' ρ')
  obtain ⟨e0, e1, e2, e3, e4, e5, e6, e7, e8, e9, e10, e11⟩ := hagree c
  refine ⟨(h c).1.trans ?_, (h c).2.1.trans ?_, (h c).2.2⟩
  · rw [e0, e1, e2, e3, e4, e5, e10, e11]
  · rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
